-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_v13 : IVec S_ 1) (main_v15 : IVec S640000 32) (main_v16 : IVec S640000 32) : IVec S_ 1 :=
  let main_v17 : IVec S640000 1 := cmpi .sge main_v15 main_v16
  let main_c_5 : IVec S_ 1 := constantI S_ 1 1#1
  let main_v18 : IVec S_ 1 := (fun x v => Host.reduce IntOp.andi x v reducesTo_S640000_S_d0 h_S_) main_v17 main_c_5
  let main_v19 : IVec S_ 1 := andi main_v13 main_v18
  let main_v20 : IVec S1x640000 32 := (extractStridedSlice S1x640000 ![0, 0] · slices_S2x640000_S1x640000_0_0) main_arg1
  let main_v21 : IVec S640000 32 := shapeCast S640000 main_v20 shapeCasts_S1x640000_S640000
  let main_c_6 : IVec S_ 32 := constantI S_ 32 10000#32
  let main_v22 : IVec S640000 32 := broadcastInDim S640000 ![] bcast_S_S640000 main_c_6
  let main_v23 : IVec S640000 1 := cmpi .slt main_v21 main_v22
  let main_c_7 : IVec S_ 1 := constantI S_ 1 1#1
  let main_v24 : IVec S_ 1 := (fun x v => Host.reduce IntOp.andi x v reducesTo_S640000_S_d0 h_S_) main_v23 main_c_7
  let main_v25 : IVec S_ 1 := andi main_v19 main_v24
  main_v25

def fn {F : FTy → Type} [FloatOps F] (main_arg0 : FVec F S10000x128 .f32) (main_arg1 : IVec S2x640000 32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![0, 0] · slices_S2x640000_S1x640000_0_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg1 main_v13 main_v15 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S10240x128 : Shape := ⟨2, ![10240, 128]⟩
abbrev S1024x1 : Shape := ⟨2, ![1024, 1]⟩
abbrev S1x1024 : Shape := ⟨2, ![1, 1024]⟩
abbrev S1024x128 : Shape := ⟨2, ![1024, 128]⟩
abbrev S10240x1 : Shape := ⟨2, ![10240, 1]⟩
abbrev S1024x256 : Shape := ⟨2, ![1024, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 21
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S_, .i32⟩
  | .hbm, ⟨10, _⟩ => ⟨S640000, .i32⟩
  | .hbm, ⟨11, _⟩ => ⟨S640000x1, .i32⟩
  | .hbm, ⟨12, _⟩ => ⟨S_, .i32⟩
  | .hbm, ⟨13, _⟩ => ⟨S_, .i32⟩
  | .hbm, ⟨14, _⟩ => ⟨S640000, .i32⟩
  | .hbm, ⟨15, _⟩ => ⟨S1x640000, .i32⟩
  | .hbm, ⟨16, _⟩ => ⟨S_, .i32⟩
  | .hbm, ⟨17, _⟩ => ⟨S_, .f32⟩
  | .hbm, ⟨18, _⟩ => ⟨S10240x128, .f32⟩
  | .hbm, ⟨19, _⟩ => ⟨S10240x128, .f32⟩
  | .hbm, ⟨20, _⟩ => ⟨S10000x128, .f32⟩
  | .local _ .vmem, ⟨0, _⟩ => ⟨S1024x1, .i32⟩
  | .local _ .vmem, ⟨1, _⟩ => ⟨S1024x1, .i32⟩
  | .local _ .vmem, ⟨2, _⟩ => ⟨S1x1024, .i32⟩
  | .local _ .vmem, ⟨3, _⟩ => ⟨S1x1024, .i32⟩
  | .local _ .vmem, ⟨4, _⟩ => ⟨S10240x128, .f32⟩
  | .local _ .vmem, ⟨5, _⟩ => ⟨S128x128, .f32⟩
  | .local _ .vmem, ⟨6, _⟩ => ⟨S128, .f32⟩
  | .local _ .vmem, ⟨7, _⟩ => ⟨S10240x128, .f32⟩
  | .local _ .vmem, ⟨8, _⟩ => ⟨S1024x128, .f32⟩
  | .local _ .vmem, ⟨9, _⟩ => ⟨S10240x1, .f32⟩
  | .local _ .vmem, ⟨10, _⟩ => ⟨S1024x256, .bf16⟩
  | .local _ .vmem, ⟨11, _⟩ => ⟨S256x1024, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10240x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  pads_S640000_S640000_000 : S640000.Pads (![0] : Fin 1 → Nat) ![0] ![0] S640000
  h_S_ : 0 < S_.numel
  shapeCasts_S640000_S640000x1 : S640000.ShapeCasts S640000x1
  shapeCasts_S640000_S1x640000 : S640000.ShapeCasts S1x640000
  pads_S10000x128_S10240x128_02400_000 : S10000x128.Pads (![0, 0] : Fin 2 → Nat) ![240, 0] ![0, 0] S10240x128
  inb_S10240x128_S10240x128_0_0 : ∀ a, (![0, 0] : Fin 2 → Nat) a + S10240x128.size a ≤ S10240x128.size a
  h_S10240x128 : 0 < S10240x128.numel
  inb_S10240x1_S10240x1_0_0 : ∀ a, (![0, 0] : Fin 2 → Nat) a + S10240x1.size a ≤ S10240x1.size a
  h_S10240x1 : 0 < S10240x1.numel
  shapeCasts_S10240x1_S10240x1 : S10240x1.ShapeCasts S10240x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x256_d1_w32 : S1024x256.Iotas .tc 32 [1]
  broadcasts_S1024x1_S1024x256 : S1024x1.Broadcasts S1024x256
  natLt_1_32 : 1 < 32
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S10240x128_S256x128_0_0 : ∀ a, (![0, 0] : Fin 2 → Nat) a + S256x128.size a ≤ S10240x128.size a
  h_S256x128 : 0 < S256x128.numel
  shapeCasts_S256x128_S256x128 : S256x128.ShapeCasts S256x128
  inb_S10240x128_S256x128_256_0 : ∀ a, (![256, 0] : Fin 2 → Nat) a + S256x128.size a ≤ S10240x128.size a
  inb_S10240x128_S256x128_512_0 : ∀ a, (![512, 0] : Fin 2 → Nat) a + S256x128.size a ≤ S10240x128.size a
  inb_S10240x128_S256x128_768_0 : ∀ a, (![768, 0] : Fin 2 → Nat) a + S256x128.size a ≤ S10240x128.size a
  inb_S10240x128_S256x128_1024_0 : ∀ a, (![1024, 0] : Fin 2 → Nat) a + S256x128.size a ≤ S10240x128.size a
  inb_S10240x128_S256x128_1280_0 : ∀ a, (![1280, 0] : Fin 2 → Nat) a + S256x128.size a ≤ S10240x128.size a
  inb_S10240x128_S256x128_1536_0 : ∀ a, (![1536, 0] : Fin 2 → Nat) a + S256x128.size a ≤ S10240x128.size a
  inb_S10240x128_S256x128_1792_0 : ∀ a, (![1792, 0] : Fin 2 → Nat) a + S256x128.size a ≤ S10240x128.size a
  inb_S10240x128_S256x128_2048_0 : ∀ a, (![2048, 0] : Fin 2 → Nat) a + S256x128.size a ≤ S10240x128.size a
  inb_S10240x128_S256x128_2304_0 : ∀ a, (![2304, 0] : Fin 2 → Nat) a + S256x128.size a ≤ S10240x128.size a
  inb_S10240x128_S256x128_2560_0 : ∀ a, (![2560, 0] : Fin 2 → Nat) a + S256x128.size a ≤ S10240x128.size a
  inb_S10240x128_S256x128_2816_0 : ∀ a, (![2816, 0] : Fin 2 → Nat) a + S256x128.size a ≤ S10240x128.size a
  inb_S10240x128_S256x128_3072_0 : ∀ a, (![3072, 0] : Fin 2 → Nat) a + S256x128.size a ≤ S10240x128.size a
  inb_S10240x128_S256x128_3328_0 : ∀ a, (![3328, 0] : Fin 2 → Nat) a + S256x128.size a ≤ S10240x128.size a
  inb_S10240x128_S256x128_3584_0 : ∀ a, (![3584, 0] : Fin 2 → Nat) a + S256x128.size a ≤ S10240x128.size a
  inb_S10240x128_S256x128_3840_0 : ∀ a, (![3840, 0] : Fin 2 → Nat) a + S256x128.size a ≤ S10240x128.size a
  inb_S10240x128_S256x128_4096_0 : ∀ a, (![4096, 0] : Fin 2 → Nat) a + S256x128.size a ≤ S10240x128.size a
  inb_S10240x128_S256x128_4352_0 : ∀ a, (![4352, 0] : Fin 2 → Nat) a + S256x128.size a ≤ S10240x128.size a
  inb_S10240x128_S256x128_4608_0 : ∀ a, (![4608, 0] : Fin 2 → Nat) a + S256x128.size a ≤ S10240x128.size a
  inb_S10240x128_S256x128_4864_0 : ∀ a, (![4864, 0] : Fin 2 → Nat) a + S256x128.size a ≤ S10240x128.size a
  inb_S10240x128_S256x128_5120_0 : ∀ a, (![5120, 0] : Fin 2 → Nat) a + S256x128.size a ≤ S10240x128.size a
  inb_S10240x128_S256x128_5376_0 : ∀ a, (![5376, 0] : Fin 2 → Nat) a + S256x128.size a ≤ S10240x128.size a
  inb_S10240x128_S256x128_5632_0 : ∀ a, (![5632, 0] : Fin 2 → Nat) a + S256x128.size a ≤ S10240x128.size a
  inb_S10240x128_S256x128_5888_0 : ∀ a, (![5888, 0] : Fin 2 → Nat) a + S256x128.size a ≤ S10240x128.size a
  inb_S10240x128_S256x128_6144_0 : ∀ a, (![6144, 0] : Fin 2 → Nat) a + S256x128.size a ≤ S10240x128.size a
  inb_S10240x128_S256x128_6400_0 : ∀ a, (![6400, 0] : Fin 2 → Nat) a + S256x128.size a ≤ S10240x128.size a
  inb_S10240x128_S256x128_6656_0 : ∀ a, (![6656, 0] : Fin 2 → Nat) a + S256x128.size a ≤ S10240x128.size a
  inb_S10240x128_S256x128_6912_0 : ∀ a, (![6912, 0] : Fin 2 → Nat) a + S256x128.size a ≤ S10240x128.size a
  inb_S10240x128_S256x128_7168_0 : ∀ a, (![7168, 0] : Fin 2 → Nat) a + S256x128.size a ≤ S10240x128.size a
  inb_S10240x128_S256x128_7424_0 : ∀ a, (![7424, 0] : Fin 2 → Nat) a + S256x128.size a ≤ S10240x128.size a
  inb_S10240x128_S256x128_7680_0 : ∀ a, (![7680, 0] : Fin 2 → Nat) a + S256x128.size a ≤ S10240x128.size a
  inb_S10240x128_S256x128_7936_0 : ∀ a, (![7936, 0] : Fin 2 → Nat) a + S256x128.size a ≤ S10240x128.size a
  inb_S10240x128_S256x128_8192_0 : ∀ a, (![8192, 0] : Fin 2 → Nat) a + S256x128.size a ≤ S10240x128.size a
  inb_S10240x128_S256x128_8448_0 : ∀ a, (![8448, 0] : Fin 2 → Nat) a + S256x128.size a ≤ S10240x128.size a
  inb_S10240x128_S256x128_8704_0 : ∀ a, (![8704, 0] : Fin 2 → Nat) a + S256x128.size a ≤ S10240x128.size a
  inb_S10240x128_S256x128_8960_0 : ∀ a, (![8960, 0] : Fin 2 → Nat) a + S256x128.size a ≤ S10240x128.size a
  inb_S10240x128_S256x128_9216_0 : ∀ a, (![9216, 0] : Fin 2 → Nat) a + S256x128.size a ≤ S10240x128.size a
  inb_S10240x128_S256x128_9472_0 : ∀ a, (![9472, 0] : Fin 2 → Nat) a + S256x128.size a ≤ S10240x128.size a
  inb_S10240x128_S256x128_9728_0 : ∀ a, (![9728, 0] : Fin 2 → Nat) a + S256x128.size a ≤ S10240x128.size a
  inb_S10240x128_S256x128_9984_0 : ∀ a, (![9984, 0] : Fin 2 → Nat) a + S256x128.size a ≤ S10240x128.size a
  iota_S256x1024_d0_w32 : S256x1024.Iotas .tc 32 [0]
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  reduces_S256x1024_S256 : S256x1024.Reduces [1] S256
  shapeCasts_S256_S256x1 : S256.ShapeCasts S256x1
  inb_S10240x1_S256x1_0_0 : ∀ a, (![0, 0] : Fin 2 → Nat) a + S256x1.size a ≤ S10240x1.size a
  h_S256x1 : 0 < S256x1.numel
  shapeCasts_S256x1_S256x1 : S256x1.ShapeCasts S256x1
  inb_S10240x1_S256x1_256_0 : ∀ a, (![256, 0] : Fin 2 → Nat) a + S256x1.size a ≤ S10240x1.size a
  inb_S10240x1_S256x1_512_0 : ∀ a, (![512, 0] : Fin 2 → Nat) a + S256x1.size a ≤ S10240x1.size a
  inb_S10240x1_S256x1_768_0 : ∀ a, (![768, 0] : Fin 2 → Nat) a + S256x1.size a ≤ S10240x1.size a
  inb_S10240x1_S256x1_1024_0 : ∀ a, (![1024, 0] : Fin 2 → Nat) a + S256x1.size a ≤ S10240x1.size a
  inb_S10240x1_S256x1_1280_0 : ∀ a, (![1280, 0] : Fin 2 → Nat) a + S256x1.size a ≤ S10240x1.size a
  inb_S10240x1_S256x1_1536_0 : ∀ a, (![1536, 0] : Fin 2 → Nat) a + S256x1.size a ≤ S10240x1.size a
  inb_S10240x1_S256x1_1792_0 : ∀ a, (![1792, 0] : Fin 2 → Nat) a + S256x1.size a ≤ S10240x1.size a
  inb_S10240x1_S256x1_2048_0 : ∀ a, (![2048, 0] : Fin 2 → Nat) a + S256x1.size a ≤ S10240x1.size a
  inb_S10240x1_S256x1_2304_0 : ∀ a, (![2304, 0] : Fin 2 → Nat) a + S256x1.size a ≤ S10240x1.size a
  inb_S10240x1_S256x1_2560_0 : ∀ a, (![2560, 0] : Fin 2 → Nat) a + S256x1.size a ≤ S10240x1.size a
  inb_S10240x1_S256x1_2816_0 : ∀ a, (![2816, 0] : Fin 2 → Nat) a + S256x1.size a ≤ S10240x1.size a
  inb_S10240x1_S256x1_3072_0 : ∀ a, (![3072, 0] : Fin 2 → Nat) a + S256x1.size a ≤ S10240x1.size a
  inb_S10240x1_S256x1_3328_0 : ∀ a, (![3328, 0] : Fin 2 → Nat) a + S256x1.size a ≤ S10240x1.size a
  inb_S10240x1_S256x1_3584_0 : ∀ a, (![3584, 0] : Fin 2 → Nat) a + S256x1.size a ≤ S10240x1.size a
  inb_S10240x1_S256x1_3840_0 : ∀ a, (![3840, 0] : Fin 2 → Nat) a + S256x1.size a ≤ S10240x1.size a
  inb_S10240x1_S256x1_4096_0 : ∀ a, (![4096, 0] : Fin 2 → Nat) a + S256x1.size a ≤ S10240x1.size a
  inb_S10240x1_S256x1_4352_0 : ∀ a, (![4352, 0] : Fin 2 → Nat) a + S256x1.size a ≤ S10240x1.size a
  inb_S10240x1_S256x1_4608_0 : ∀ a, (![4608, 0] : Fin 2 → Nat) a + S256x1.size a ≤ S10240x1.size a
  inb_S10240x1_S256x1_4864_0 : ∀ a, (![4864, 0] : Fin 2 → Nat) a + S256x1.size a ≤ S10240x1.size a
  inb_S10240x1_S256x1_5120_0 : ∀ a, (![5120, 0] : Fin 2 → Nat) a + S256x1.size a ≤ S10240x1.size a
  inb_S10240x1_S256x1_5376_0 : ∀ a, (![5376, 0] : Fin 2 → Nat) a + S256x1.size a ≤ S10240x1.size a
  inb_S10240x1_S256x1_5632_0 : ∀ a, (![5632, 0] : Fin 2 → Nat) a + S256x1.size a ≤ S10240x1.size a
  inb_S10240x1_S256x1_5888_0 : ∀ a, (![5888, 0] : Fin 2 → Nat) a + S256x1.size a ≤ S10240x1.size a
  inb_S10240x1_S256x1_6144_0 : ∀ a, (![6144, 0] : Fin 2 → Nat) a + S256x1.size a ≤ S10240x1.size a
  inb_S10240x1_S256x1_6400_0 : ∀ a, (![6400, 0] : Fin 2 → Nat) a + S256x1.size a ≤ S10240x1.size a
  inb_S10240x1_S256x1_6656_0 : ∀ a, (![6656, 0] : Fin 2 → Nat) a + S256x1.size a ≤ S10240x1.size a
  inb_S10240x1_S256x1_6912_0 : ∀ a, (![6912, 0] : Fin 2 → Nat) a + S256x1.size a ≤ S10240x1.size a
  inb_S10240x1_S256x1_7168_0 : ∀ a, (![7168, 0] : Fin 2 → Nat) a + S256x1.size a ≤ S10240x1.size a
  inb_S10240x1_S256x1_7424_0 : ∀ a, (![7424, 0] : Fin 2 → Nat) a + S256x1.size a ≤ S10240x1.size a
  inb_S10240x1_S256x1_7680_0 : ∀ a, (![7680, 0] : Fin 2 → Nat) a + S256x1.size a ≤ S10240x1.size a
  inb_S10240x1_S256x1_7936_0 : ∀ a, (![7936, 0] : Fin 2 → Nat) a + S256x1.size a ≤ S10240x1.size a
  inb_S10240x1_S256x1_8192_0 : ∀ a, (![8192, 0] : Fin 2 → Nat) a + S256x1.size a ≤ S10240x1.size a
  inb_S10240x1_S256x1_8448_0 : ∀ a, (![8448, 0] : Fin 2 → Nat) a + S256x1.size a ≤ S10240x1.size a
  inb_S10240x1_S256x1_8704_0 : ∀ a, (![8704, 0] : Fin 2 → Nat) a + S256x1.size a ≤ S10240x1.size a
  inb_S10240x1_S256x1_8960_0 : ∀ a, (![8960, 0] : Fin 2 → Nat) a + S256x1.size a ≤ S10240x1.size a
  inb_S10240x1_S256x1_9216_0 : ∀ a, (![9216, 0] : Fin 2 → Nat) a + S256x1.size a ≤ S10240x1.size a
  inb_S10240x1_S256x1_9472_0 : ∀ a, (![9472, 0] : Fin 2 → Nat) a + S256x1.size a ≤ S10240x1.size a
  inb_S10240x1_S256x1_9728_0 : ∀ a, (![9728, 0] : Fin 2 → Nat) a + S256x1.size a ≤ S10240x1.size a
  inb_S10240x1_S256x1_9984_0 : ∀ a, (![9984, 0] : Fin 2 → Nat) a + S256x1.size a ≤ S10240x1.size a
  shapeCasts_S10240x128_S10240x128 : S10240x128.ShapeCasts S10240x128
  broadcasts_S10240x1_S10240x128 : S10240x1.Broadcasts S10240x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10240x128 : S1x128.Broadcasts S10240x128
  slices_S10240x128_S10000x128_0_0 : S10240x128.Slices ![0, 0] S10000x128
  dot_S1024x256_S256x128_S1024x128_1_0_0_1_n_n_wf : DotDims.WF S1024x256 S256x128 S1024x128 [1] [0] [0] [1] [] []
  dot_S256x1024_S1024x128_S256x128_1_0_0_1_n_n_wf : DotDims.WF S256x1024 S1024x128 S256x128 [1] [0] [0] [1] [] []
  dot_S10240x128_S128x128_S10240x128_1_0_0_1_n_n_wf : DotDims.WF S10240x128 S128x128 S10240x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S640000x1.size a
  hwx0_0 : ∀ i : grid0.Coords, EltTy.bits .i32 = 32 ∨ (Rect.block (s := S640000x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x640000.size a
  hwx0_1 : ∀ i : grid0.Coords, EltTy.bits .i32 = 32 ∨ (Rect.block (s := S1x640000) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x128.size a ≤ S10240x128.size a
  hwx0_2 : ∀ i : grid0.Coords, EltTy.bits .f32 = 32 ∨ (Rect.block (s := S10240x128) S10240x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10240x128.size a ≤ S10240x128.size a
  hwx0_5 : ∀ i : grid0.Coords, EltTy.bits .f32 = 32 ∨ (Rect.block (s := S10240x128) S10240x128.size (cc0_transform_5 i) (hinb0_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10240x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S10240x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_1_0_0_n_n_wf : DotDims.WF S10000x128 S128x128 S10000x128 [1] [1] [0] [0] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

class Facts : Prop extends Facts₀ where

variable [Facts]
-- ==== Proof.PreFacts.lean ====
/-
  THE PRECONDITION READ BACK AT THE SOURCE ROW. The statement's precondition is a conjunction of five
  "all elements" tests; its last two say of row 0 of the [2, 640000] integer table that every word is at least 0 and
  below 10000, read signed. Here the claim "the printed function is the one-bit word 1" is turned into that
  arithmetic fact at one column j:  0 ≤ table[0, j] < 10000.

  The road: the result has one index, so the claim is one equation between one-bit words; a conjunction of bits is 1
  exactly when both are (the three float tests are split off and dropped); an "all" by and-reduction that is 1 had a 1
  at every element; an element of a comparison array is the comparison of the elements; row 0 sliced out and flattened
  reads, at position j, the table at (0, j); the constant broadcast reads the constant everywhere; and a signed
  comparison word being 1 is the order of the signed readings.
-/
import proofs.«402920_j87531433492751_4_alg».proof.Pre_finite_inputs
import Idealize.ShloMosaic.Lib.ValueIdx
import Idealize.ShloMosaic.Lib.ReduceAll
import Idealize.ShloMosaic.Lib.StableHlo.Predicate
import Idealize.ShloMosaic.Lib.Pipeline.Value

namespace Cert.PreFacts

open Idealize.ShloMosaic Idealize.ShloMosaic.ValueIdx
open Cert.Pre_finite_inputs

/-- The scalar shape has one index. -/
theorem subsingleton_scalar_idx : Subsingleton S_.Idx := ⟨fun a b => funext fun d => d.elim0⟩

/-- Row 0 of the [2, 640000] table, sliced out as a [1, 640000] block and flattened to [640000], reads at position j
    the table's word at (0, j): the flattening keeps the row-major position (0 · 640000 + j = j) and the slice starts
    at offset (0, 0). -/
theorem row0_apply [Facts] (a1 : IVec S2x640000 32) (j : Fin 640000) :
    shapeCast S640000 (extractStridedSlice S1x640000 ![0, 0] a1 Facts.slices_S2x640000_S1x640000_0_0)
        Facts.shapeCasts_S1x640000_S640000 (ix1 j)
      = a1 (ix2 0 j) := by
  refine (shapeCast_apply _ Facts.shapeCasts_S1x640000_S640000 (ix1 j) (ix2 0 j) ?_).trans ?_
  · rw [Shape.rowMajor_val_two, Shape.rowMajor_val_one]
    show 0 * 640000 + j.val = j.val
    omega
  · exact extractStridedSlice_apply ![0, 0] a1 Facts.slices_S2x640000_S1x640000_0_0 (ix2 0 j) (ix2 0 j) (fun a =>
      match a with
      | ⟨0, _⟩ => by show 0 = 0 + 0; omega
      | ⟨1, _⟩ => by show j.val = 0 + j.val; omega)

/-- The signed reading of the word 10000. -/
theorem toInt_10000 : (10000#32 : BitVec 32).toInt = 10000 := by decide

/-- The signed reading of the word 0. -/
theorem toInt_0 : (0#32 : BitVec 32).toInt = 0 := by decide

/-- THE PRECONDITION DECODED at column j of row 0: the word there, read signed, lies in [0, 10000). -/
theorem src_range {F : FTy → Type} [FloatOps F] [Cert.Pre_finite_inputs.Facts]
    (a0 : FVec F Cert.Pre_finite_inputs.S10000x128 .f32) (a1 : IVec Cert.Pre_finite_inputs.S2x640000 32)
    (a2 : FVec F Cert.Pre_finite_inputs.S128x128 .f32) (a3 : FVec F Cert.Pre_finite_inputs.S128 .f32)
    (h : Cert.Pre_finite_inputs.fn (F := F) a0 a1 a2 a3 = fun _ => 1#1) (j : Fin 640000) :
    0 ≤ (a1 (Idealize.ShloMosaic.ValueIdx.ix2 0 j)).toInt ∧ (a1 (Idealize.ShloMosaic.ValueIdx.ix2 0 j)).toInt < 10000 := by
  -- the result has one index: the claim there
  have e := congrFun h ix0
  -- the chain of operations, down to the conjunction of the five tests' bits
  dsimp only [Cert.Pre_finite_inputs.fn, Cert.Pre_finite_inputs.fn_part1, andi] at e
  -- both bits of each conjunction are 1; keep the two integer tests
  obtain ⟨⟨-, hge⟩, hlt⟩ := (IntOp.andi_eq_one.1 e).imp_left IntOp.andi_eq_one.1
  -- an "all" that is 1 had a 1 at position j
  haveI := subsingleton_scalar_idx
  have hge' := Host.reduce_andi_all _ _ _ _ _ hge (ix1 j)
  have hlt' := Host.reduce_andi_all _ _ _ _ _ hlt (ix1 j)
  -- the comparison at position j compares the elements; the row-0 read; the broadcast constants
  dsimp only [cmpi] at hge' hlt'
  rw [row0_apply a1 j, StableHlo.Predicate.bcast_scalar _ Facts.h_S_] at hge' hlt'
  dsimp only [constantI] at hge' hlt'
  -- a signed comparison word that is 1 is the order of the signed readings
  rw [IntOp.cmpi_sge, toInt_0] at hge'
  rw [IntOp.cmpi_slt, toInt_10000] at hlt'
  exact ⟨hge', hlt'⟩

end Cert.PreFacts
-- ==== Proof.Spec.lean ====
/-
  The graph-convolution layer as one function of its four inputs, entry by entry, on the extended reals.

  Node features x : [10000, 128], edges ei : [2, 640000] (row 0 the sources, row 1 the destinations, as
  32-bit words), weights W : [128, 128], bias b : [128]. For node n and feature d

    agg n d = the sum over the edges j whose destination is n of x (source j) d,
    deg n   = the number of edges whose destination is n,
    out n o = max (sum over k of (agg n k / max (deg n) 1 + x n k) * W o k  +  b o) 0.

  An edge whose destination word names no node contributes nowhere. The kernel accumulates agg and deg one
  block of 1024 edges at a time, into arrays of 10240 rows (the nodes padded by 240 zero rows), and reads a
  source row through a one-hot product; the functions of the second half of this file say what one block adds.
-/
import Idealize.ShloMosaic.Lib.ValueIdx
import Idealize.ShloMosaic.PureOps.Ideal

noncomputable section

namespace Cert.Gcn

open Idealize.ShloMosaic Idealize.ShloMosaic.ValueIdx
open scoped BigOperators

/-- The word for 1.0 and the word for 0.0, read as extended reals; the same words on both programs' sides, so
    they are never evaluated where they only meet each other. -/
abbrev one32 : EReal := Ideal.ofBits .f32 0x3F800000#32
abbrev zero32 : EReal := Ideal.ofBits .f32 0x00000000#32

/-- The weight of a word against a row number: one when the word is that number, zero otherwise. -/
def hit (w : BitVec 32) (n : ℕ) : EReal := if w = BitVec.ofNat 32 n then 1 else 0

/-- The row of x a source word selects: the row it names (a word past the last row, which the stated domain
    excludes, is read as the last row). -/
def srcRow (w : BitVec 32) : Fin 10000 := ⟨min w.toInt.toNat 9999, by omega⟩

/-- The features summed into node n: over the edges into n, the source's feature d. -/
def agg (x : (⟨2, ![10000, 128]⟩ : Shape).Idx → EReal) (ei : IVec ⟨2, ![2, 640000]⟩ 32) (n : Fin 10000) (d : Fin 128) : EReal :=
  ∑ j : Fin 640000, hit (ei (ix2 1 j)) n.val * x (ix2 (srcRow (ei (ix2 0 j))) d)

/-- The number of edges into node n. -/
def deg (ei : IVec ⟨2, ![2, 640000]⟩ 32) (n : Fin 10000) : EReal :=
  ∑ j : Fin 640000, hit (ei (ix2 1 j)) n.val

/-- The layer's output at node n, output feature o. -/
def out (x : (⟨2, ![10000, 128]⟩ : Shape).Idx → EReal) (ei : IVec ⟨2, ![2, 640000]⟩ 32)
    (W : (⟨2, ![128, 128]⟩ : Shape).Idx → EReal) (b : (⟨1, ![128]⟩ : Shape).Idx → EReal) (n : Fin 10000) (o : Fin 128) : EReal :=
  max ((∑ k : Fin 128, (Ideal.div (agg x ei n k) (max (deg ei n) one32) + x (ix2 n k)) * W (ix2 o k)) + b (ix1 o)) zero32

/-! ## One block of 1024 edges, on the padded arrays -/

/-- Row n of the padded features, for any natural n: zero past the array. -/
def rowN (x2 : (⟨2, ![10240, 128]⟩ : Shape).Idx → EReal) (n : ℕ) (d : Fin 128) : EReal :=
  if h : n < 10240 then x2 (ix2 ⟨n, h⟩ d) else 0

/-- What the one-hot product gathers for edge e of a block: the padded row its source word names. -/
def gath (x0 : IVec ⟨2, ![1024, 1]⟩ 32) (x2 : (⟨2, ![10240, 128]⟩ : Shape).Idx → EReal) (e : Fin 1024) (d : Fin 128) : EReal :=
  ∑ n ∈ Finset.range 10240, hit (x0 (ix2 e 0)) n * rowN x2 n d

/-- The running sums after one more block: each row gains the gathered rows of the block's edges into it. -/
def stepOut (x0 : IVec ⟨2, ![1024, 1]⟩ 32) (x1 : IVec ⟨2, ![1, 1024]⟩ 32) (x2 : (⟨2, ![10240, 128]⟩ : Shape).Idx → EReal)
    (o : (⟨2, ![10240, 128]⟩ : Shape).Idx → EReal) (n : Fin 10240) (d : Fin 128) : EReal :=
  o (ix2 n d) + ∑ e : Fin 1024, hit (x1 (ix2 0 e)) n.val * gath x0 x2 e d

/-- The running counts after one more block: each row gains the number of the block's edges into it. -/
def stepDeg (x1 : IVec ⟨2, ![1, 1024]⟩ 32) (s : (⟨2, ![10240, 1]⟩ : Shape).Idx → EReal) (n : Fin 10240) : EReal :=
  s (ix2 n 0) + ∑ e : Fin 1024, hit (x1 (ix2 0 e)) n.val

/-- The last step: divide by the clamped count, add the node's own features, apply the weights and the bias, clamp at zero. -/
def epi (O : Fin 10240 → Fin 128 → EReal) (D : Fin 10240 → EReal) (x2 : (⟨2, ![10240, 128]⟩ : Shape).Idx → EReal)
    (x3 : (⟨2, ![128, 128]⟩ : Shape).Idx → EReal) (x4 : (⟨1, ![128]⟩ : Shape).Idx → EReal) (n : Fin 10240) (o : Fin 128) : EReal :=
  max ((∑ k : Fin 128, (Ideal.div (O n k) (max (D n) one32) + x2 (ix2 n k)) * x3 (ix2 o k)) + x4 (ix1 o)) zero32

/-! ## All 625 blocks: the kernel's arrays as sums over the edges -/

/-- Word j of the source column the kernel streams (the zero word past the end). -/
def colN (S : IVec ⟨2, ![640000, 1]⟩ 32) (j : ℕ) : BitVec 32 := if h : j < 640000 then S (ix2 ⟨j, h⟩ 0) else 0#32

/-- Word j of the destination row the kernel streams (the zero word past the end). -/
def rowWN (Dd : IVec ⟨2, ![1, 640000]⟩ 32) (j : ℕ) : BitVec 32 := if h : j < 640000 then Dd (ix2 0 ⟨j, h⟩) else 0#32

/-- What edge j adds to row n, feature d of the running sums: its gathered source row when its destination is n. -/
def term (S : IVec ⟨2, ![640000, 1]⟩ 32) (Dd : IVec ⟨2, ![1, 640000]⟩ 32) (Xp : (⟨2, ![10240, 128]⟩ : Shape).Idx → EReal)
    (n : Fin 10240) (d : Fin 128) (j : ℕ) : EReal :=
  hit (rowWN Dd j) n.val * ∑ n' ∈ Finset.range 10240, hit (colN S j) n' * rowN Xp n' d

/-- What edge j adds to row n of the running counts. -/
def cnt (Dd : IVec ⟨2, ![1, 640000]⟩ 32) (n : Fin 10240) (j : ℕ) : EReal := hit (rowWN Dd j) n.val

/-- The running sums after all the blocks. -/
def aggK (S : IVec ⟨2, ![640000, 1]⟩ 32) (Dd : IVec ⟨2, ![1, 640000]⟩ 32) (Xp : (⟨2, ![10240, 128]⟩ : Shape).Idx → EReal)
    (n : Fin 10240) (d : Fin 128) : EReal := ∑ j ∈ Finset.range 640000, term S Dd Xp n d j

/-- The running counts after all the blocks. -/
def degK (Dd : IVec ⟨2, ![1, 640000]⟩ 32) (n : Fin 10240) : EReal := ∑ j ∈ Finset.range 640000, cnt Dd n j

/-- The kernel's output array (10240 rows) as a function of the arrays it is launched on. -/
def outK (S : IVec ⟨2, ![640000, 1]⟩ 32) (Dd : IVec ⟨2, ![1, 640000]⟩ 32) (Xp : (⟨2, ![10240, 128]⟩ : Shape).Idx → EReal)
    (W : (⟨2, ![128, 128]⟩ : Shape).Idx → EReal) (b : (⟨1, ![128]⟩ : Shape).Idx → EReal) (n : Fin 10240) (o : Fin 128) : EReal :=
  epi (aggK S Dd Xp) (degK Dd) Xp W b n o

end Cert.Gcn

end
-- ==== Proof.LibRowScatter.lean ====
/-
  Row gathers and row scatters of a rank-2 table, read at an entry.

  A scatter whose body returns the update is a left fold of overwriting steps over the update positions in row-major
  order, so an entry ends with the update of the LAST position that lands on it, or with the operand's element when no
  position lands on it. For the scatter that writes whole rows (x.at[idx].set(rows)) every entry of result row n is
  decided by the same update row: the last row j whose index, read signed, is n. Hence such a scatter commutes with
  any map applied row by row. The gather that takes whole rows (x[idx]) reads row min (idx j) (V - 1) of the table.

  Nothing here asks the indices to be distinct or in range.
-/
import Idealize.ShloMosaic.Lib.ValueIdx
import Mathlib.Data.List.Sort
import Mathlib.Data.Finset.Max

noncomputable section

namespace Cert.LibRowScatter

open Idealize.ShloMosaic Idealize.ShloMosaic.ValueIdx

/-! ## A fold of overwriting steps, read at an entry -/

section Fold
variable {ι κ α : Type} [DecidableEq κ]

/-- One overwriting step: position n replaces the entry g n by v n, and does nothing when g n is no entry. -/
def put (g : ι → Option κ) (v : ι → α) (r : κ → α) (n : ι) : κ → α :=
  match g n with
  | some i => fun i' => if i' = i then v n else r i'
  | none => r

theorem put_of_ne (g : ι → Option κ) (v : ι → α) (r : κ → α) (n : ι) (i' : κ) (h : g n ≠ some i') :
    put g v r n i' = r i' := by
  unfold put
  cases hg : g n with
  | none => rfl
  | some i => exact if_neg (fun e => h (by rw [hg, e]))

theorem put_of_eq (g : ι → Option κ) (v : ι → α) (r : κ → α) (n : ι) (i' : κ) (h : g n = some i') :
    put g v r n i' = v n := by
  unfold put
  rw [h]
  exact if_pos rfl

/-- An entry no position of the list lands on keeps its value. -/
theorem foldl_put_of_miss (g : ι → Option κ) (v : ι → α) (l : List ι) (x : κ → α) (i' : κ)
    (h : ∀ n ∈ l, g n ≠ some i') : l.foldl (put g v) x i' = x i' := by
  induction l generalizing x with
  | nil => rfl
  | cons a l ih =>
    rw [List.foldl_cons, ih _ (fun n hn => h n (List.mem_cons_of_mem _ hn)),
      put_of_ne g v x a i' (h a (List.mem_cons.2 (Or.inl rfl)))]

/-- The entry position a lands on holds v a after the fold when no later position lands there. -/
theorem foldl_put_of_last (g : ι → Option κ) (v : ι → α) (l₁ l₂ : List ι) (a : ι) (x : κ → α) (i' : κ)
    (ha : g a = some i') (h₂ : ∀ n ∈ l₂, g n ≠ some i') : (l₁ ++ a :: l₂).foldl (put g v) x i' = v a := by
  rw [List.foldl_append, List.foldl_cons, foldl_put_of_miss g v l₂ _ i' h₂, put_of_eq g v _ a i' ha]

end Fold

/-- The positions below K in order, cut at n: everything after n is larger. -/
theorem finRange_cut {K : Nat} (n : Fin K) : ∃ l₁ l₂, List.finRange K = l₁ ++ n :: l₂ ∧ ∀ b ∈ l₂, n < b := by
  obtain ⟨l₁, l₂, h⟩ := List.append_of_mem (List.mem_finRange n)
  refine ⟨l₁, l₂, h, ?_⟩
  have hs : (List.finRange K).Pairwise (· < ·) := (List.sortedLT_finRange K).pairwise
  rw [h] at hs
  exact fun b hb => (List.pairwise_cons.1 (List.pairwise_append.1 hs).2.1).1 b hb

/-! ## A "set" scatter read at an entry -/

section Scatter
variable {s si u : Shape} {α : Type} {w : Nat}

theorem scatter_set_eq_foldl (d : ScatterDims s si u) (x : s.Idx → α) (idx : IVec si w) (upd : u.Idx → α) :
    Host.scatter d (fun _ b => b) x idx upd
      = (List.finRange u.numel).foldl
          (put (fun n => d.resultIdx? (u.rowMajor.symm n) idx) (fun n => upd (u.rowMajor.symm n))) x := by
  unfold Host.scatter
  congr 1
  funext r n
  unfold put
  beta_reduce
  cases d.resultIdx? (u.rowMajor.symm n) idx <;> rfl

/-- An entry no update lands on holds the operand's element. -/
theorem scatter_set_of_miss (d : ScatterDims s si u) (x : s.Idx → α) (idx : IVec si w) (upd : u.Idx → α)
    (i' : s.Idx) (h : ∀ j, d.resultIdx? j idx ≠ some i') :
    Host.scatter d (fun _ b => b) x idx upd i' = x i' := by
  rw [scatter_set_eq_foldl]
  exact foldl_put_of_miss _ _ _ x i' (fun n _ => h _)

/-- The entry update index j lands on holds upd j when no update index later in row-major order lands there. -/
theorem scatter_set_of_last (d : ScatterDims s si u) (x : s.Idx → α) (idx : IVec si w) (upd : u.Idx → α)
    (i' : s.Idx) (j : u.Idx) (hj : d.resultIdx? j idx = some i')
    (hlast : ∀ j', u.rowMajor j < u.rowMajor j' → d.resultIdx? j' idx ≠ some i') :
    Host.scatter d (fun _ b => b) x idx upd i' = upd j := by
  rw [scatter_set_eq_foldl]
  obtain ⟨l₁, l₂, hl, hgt⟩ := finRange_cut (u.rowMajor j)
  rw [hl, foldl_put_of_last _ _ l₁ l₂ (u.rowMajor j) x i' (by rw [Equiv.symm_apply_apply]; exact hj)
    (fun n hn => hlast _ (by rw [Equiv.apply_symm_apply]; exact hgt n hn)), Equiv.symm_apply_apply]

end Scatter

/-! ## The scatter that writes whole rows, and the gather that takes whole rows -/

/-- A rank-2 shape's axes are its first and its second. -/
theorem axis2 {d : Fin 2 → Nat} (a : Fin (⟨2, d⟩ : Shape).rank) : a = 0 ∨ a = 1 := by
  have h : a.val < 2 := a.isLt
  rcases (by omega : a.val = 0 ∨ a.val = 1) with e | e
  · exact Or.inl (Fin.ext e)
  · exact Or.inr (Fin.ext e)

theorem fin2_one_ne_zero : (1 : Fin 2) ≠ 0 := by decide

/-- An axis is not among the axes kept after dropping it. -/
theorem not_mem_kept_single {s : Shape} (a : Fin s.rank) : a ∉ s.kept [a] := by
  unfold Shape.kept
  intro h
  have := (List.mem_filter.1 h).2
  simp at this

/-- Another axis is kept. -/
theorem mem_kept_single {s : Shape} {a b : Fin s.rank} (h : b ≠ a) : b ∈ s.kept [a] := by
  unfold Shape.kept
  exact List.mem_filter.2 ⟨List.mem_finRange b, by simpa using h⟩

section Rows
variable {N M C : Nat} {w : Nat}

/-- The dimension numbers of x.at[idx].set(rows): an [N, C] operand, an [M, 1] column of row indices, [M, C] updates;
    update row j goes, whole, to operand row idx j. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand row update row j lands on: its index read signed, when that is a row of the operand. -/
def landRow (N : Nat) (idx : IVec ⟨2, ![M, 1]⟩ w) (j : Fin M) : Option (Fin N) :=
  if h : 0 ≤ (idx (ix2 j 0)).toInt ∧ (idx (ix2 j 0)).toInt < (N : Int) then
    some ⟨(idx (ix2 j 0)).toInt.toNat, by omega⟩
  else none

/-- Update entry (j, c) lands on entry (landRow j, c), and is dropped when row j's index is no row. -/
theorem resultIdx_rows (wf : ScatterDims.WF ⟨2, ![N, C]⟩ ⟨2, ![M, 1]⟩ ⟨2, ![M, C]⟩ [1] [0] [0] 1)
    (idx : IVec ⟨2, ![M, 1]⟩ w) (j : Fin M) (c : Fin C) :
    (rowsDims N M C wf).resultIdx? (ix2 j c) idx = (landRow N idx j).map (fun n => ix2 n c) := by
  have hs0 : (rowsDims N M C wf).start (ix2 j c) idx 0 = (idx (ix2 j 0)).toInt := by
    have hm : (0 : Fin (⟨2, ![N, C]⟩ : Shape).rank) ∈ (rowsDims N M C wf).scatterDimsToOperandDims :=
      List.mem_singleton.mpr rfl
    unfold ScatterDims.start
    rw [dif_pos hm]
    have hsi : (rowsDims N M C wf).siIdx (ix2 j c) ⟨List.idxOf (0 : Fin (⟨2, ![N, C]⟩ : Shape).rank) (rowsDims N M C wf).scatterDimsToOperandDims,
          List.idxOf_lt_length_iff.2 hm⟩ = ix2 j 0 := by
      funext b; refine Fin.ext ?_
      match b with
      | ⟨0, _⟩ => rfl
      | ⟨1, _⟩ => rfl
    rw [hsi]
  have hs1 : (rowsDims N M C wf).start (ix2 j c) idx 1 = 0 := by
    have hm : (1 : Fin (⟨2, ![N, C]⟩ : Shape).rank) ∉ (rowsDims N M C wf).scatterDimsToOperandDims :=
      fun h => fin2_one_ne_zero (List.mem_singleton.mp h)
    unfold ScatterDims.start
    rw [dif_neg hm]
  have hw0 : (rowsDims N M C wf).window (ix2 j c) 0 = 0 := by
    have hm : (0 : Fin (⟨2, ![N, C]⟩ : Shape).rank) ∉ (rowsDims N M C wf).sKept := not_mem_kept_single _
    unfold ScatterDims.window
    rw [dif_neg hm]
  have hw1 : (rowsDims N M C wf).window (ix2 j c) 1 = c.val := by
    have hm : (1 : Fin (⟨2, ![N, C]⟩ : Shape).rank) ∈ (rowsDims N M C wf).sKept := mem_kept_single fin2_one_ne_zero
    unfold ScatterDims.window
    rw [dif_pos hm]
    rfl
  have hc := c.isLt
  unfold ScatterDims.resultIdx? landRow
  by_cases hin : 0 ≤ (idx (ix2 j 0)).toInt ∧ (idx (ix2 j 0)).toInt < (N : Int)
  · have hall : ∀ a, 0 ≤ (rowsDims N M C wf).start (ix2 j c) idx a + (rowsDims N M C wf).window (ix2 j c) a
        ∧ (rowsDims N M C wf).start (ix2 j c) idx a + (rowsDims N M C wf).window (ix2 j c) a < (⟨2, ![N, C]⟩ : Shape).size a := by
      intro a
      rcases axis2 a with rfl | rfl
      · rw [hs0, hw0]
        show _ ∧ _ < ((N : Nat) : Int)
        omega
      · rw [hs1, hw1]
        show _ ∧ _ < ((C : Nat) : Int)
        omega
    rw [dif_pos hall, dif_pos hin]
    show some _ = some _
    congr 1
    funext a
    refine Fin.ext ?_
    show ((rowsDims N M C wf).start (ix2 j c) idx a + (rowsDims N M C wf).window (ix2 j c) a).toNat = _
    rcases axis2 a with rfl | rfl
    · rw [hs0, hw0]
      show ((idx (ix2 j 0)).toInt + ((0 : Nat) : Int)).toNat = (idx (ix2 j 0)).toInt.toNat
      omega
    · rw [hs1, hw1]
      show ((0 : Int) + (c.val : Int)).toNat = c.val
      omega
  · rw [dif_neg hin, dif_neg]
    · rfl
    · intro hall
      have h0 := hall 0
      rw [hs0, hw0] at h0
      have h0' : 0 ≤ (idx (ix2 j 0)).toInt + ((0 : Nat) : Int) ∧ (idx (ix2 j 0)).toInt + ((0 : Nat) : Int) < ((N : Nat) : Int) := h0
      exact hin (by omega)

/-- The last update row that lands on operand row n, when there is one. -/
def lastHit (N : Nat) (idx : IVec ⟨2, ![M, 1]⟩ w) (n : Fin N) : Option (Fin M) :=
  if h : (Finset.univ.filter fun j : Fin M => landRow N idx j = some n).Nonempty then
    some ((Finset.univ.filter fun j : Fin M => landRow N idx j = some n).max' h)
  else none

theorem lastHit_some {idx : IVec ⟨2, ![M, 1]⟩ w} {n : Fin N} {j : Fin M} (h : lastHit N idx n = some j) :
    landRow N idx j = some n ∧ ∀ j', landRow N idx j' = some n → j' ≤ j := by
  unfold lastHit at h
  split at h
  · rename_i hne
    have hj := Option.some.inj h
    subst hj
    exact ⟨(Finset.mem_filter.1 (Finset.max'_mem _ hne)).2,
      fun j' hj' => Finset.le_max' _ j' (Finset.mem_filter.2 ⟨Finset.mem_univ _, hj'⟩)⟩
  · cases h

theorem lastHit_none {idx : IVec ⟨2, ![M, 1]⟩ w} {n : Fin N} (h : lastHit N idx n = none) (j : Fin M) :
    landRow N idx j ≠ some n := by
  unfold lastHit at h
  split at h
  · cases h
  · rename_i hne
    exact fun hj => hne ⟨j, Finset.mem_filter.2 ⟨Finset.mem_univ _, hj⟩⟩

/-- THE ROW SCATTER READ AT (n, c): row n of the result is the update row that landed on it last, and the operand's
    row when none did; which one does not depend on the column, nor on what the rows hold. -/
theorem scatter_rows_apply {α : Type} (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (n : Fin N) (c : Fin C) :
    Host.scatter (rowsDims N M C wf) (fun _ b => b) x idx upd (ix2 n c)
      = match lastHit N idx n with
        | none => x (ix2 n c)
        | some j => upd (ix2 j c) := by
  have land : ∀ (a : Fin M) (b : Fin C), (rowsDims N M C wf).resultIdx? (ix2 a b) idx = some (ix2 n c) →
      landRow N idx a = some n ∧ b = c := by
    intro a b hab
    rw [resultIdx_rows] at hab
    cases hl : landRow N idx a with
    | none => rw [hl] at hab; cases hab
    | some n' =>
      rw [hl] at hab
      have e : ix2 n' b = ix2 n c := Option.some.inj hab
      have e0 : n' = n := congrFun e 0
      have e1 : b = c := congrFun e 1
      exact ⟨by rw [e0], e1⟩
  cases hh : lastHit N idx n with
  | none =>
    refine scatter_set_of_miss _ x idx upd _ (fun j' hj' => ?_)
    obtain ⟨a, b, rfl⟩ : ∃ (a : Fin M) (b : Fin C), j' = ix2 a b := ⟨j' 0, j' 1, eq_ix2 j'⟩
    exact lastHit_none hh a (land a b hj').1
  | some j =>
    obtain ⟨hj, hmax⟩ := lastHit_some hh
    refine scatter_set_of_last _ x idx upd _ (ix2 j c) (by rw [resultIdx_rows, hj]; rfl) (fun j' hlt hj' => ?_)
    obtain ⟨a, b, rfl⟩ : ∃ (a : Fin M) (b : Fin C), j' = ix2 a b := ⟨j' 0, j' 1, eq_ix2 j'⟩
    obtain ⟨h0, h1⟩ := land a b hj'
    have hle : a.val ≤ j.val := Fin.le_def.1 (hmax _ h0)
    have hlt' := Fin.lt_def.1 hlt
    rw [Shape.rowMajor_val_two, Shape.rowMajor_val_two] at hlt'
    have hc : b.val = c.val := congrArg Fin.val h1
    have hmul : a.val * C ≤ j.val * C := Nat.mul_le_mul_right C hle
    change j.val * C + c.val < a.val * C + b.val at hlt'
    omega

/-- A ROW SCATTER COMMUTES WITH A MAP OF ROWS: applying Φ to every row of the scattered table is scattering the
    Φ-images of the update rows into the Φ-image of the operand. -/
theorem scatter_rows_map {α β : Type} {C' : Nat}
    (wf : ScatterDims.WF ⟨2, ![N, C]⟩ ⟨2, ![M, 1]⟩ ⟨2, ![M, C]⟩ [1] [0] [0] 1)
    (wf' : ScatterDims.WF ⟨2, ![N, C']⟩ ⟨2, ![M, 1]⟩ ⟨2, ![M, C']⟩ [1] [0] [0] 1)
    (Φ : (Fin C → α) → Fin C' → β)
    (x : (⟨2, ![N, C]⟩ : Shape).Idx → α) (idx : IVec ⟨2, ![M, 1]⟩ w) (upd : (⟨2, ![M, C]⟩ : Shape).Idx → α)
    (n : Fin N) (e : Fin C') :
    Φ (fun s => Host.scatter (rowsDims N M C wf) (fun _ b => b) x idx upd (ix2 n s)) e
      = Host.scatter (rowsDims N M C' wf') (fun _ b => b) (fun i => Φ (fun s => x (ix2 (i 0) s)) (i 1)) idx
          (fun p => Φ (fun s => upd (ix2 (p 0) s)) (p 1)) (ix2 n e) := by
  rw [scatter_rows_apply wf']
  simp only [scatter_rows_apply wf]
  cases lastHit N idx n <;> rfl

end Rows

section Take
variable {α : Type} {V R C w : Nat}

/-- The dimension numbers of x[idx] over an [V, C] table with an [R, 1] column of row indices: result row r is the
    table's row idx r. -/
abbrev takeRows (V R C : Nat) (wf : GatherDims.WF ⟨2, ![V, C]⟩ ⟨2, ![R, 1]⟩ ⟨2, ![R, C]⟩ [1] [0] [] [0] [] 1 ![1, C]) :
    GatherDims ⟨2, ![V, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, c): the table at row idx r — read signed and clamped into [0, V - 1] — and column c. -/
theorem gather_rows_apply (hV : 0 < V)
    (wf : GatherDims.WF ⟨2, ![V, C]⟩ ⟨2, ![R, 1]⟩ ⟨2, ![R, C]⟩ [1] [0] [] [0] [] 1 ![1, C])
    (x : (⟨2, ![V, C]⟩ : Shape).Idx → α) (idx : IVec ⟨2, ![R, 1]⟩ w) (r : Fin R) (c : Fin C) :
    Host.gather (takeRows V R C wf) x idx (ix2 r c)
      = x (ix2 ⟨min (idx (ix2 r 0)).toInt.toNat (V - 1), by omega⟩ c) := by
  unfold Host.gather
  congr 1
  funext a
  refine Fin.ext ?_
  show (takeRows V R C wf).start (ix2 r c) idx a + (takeRows V R C wf).batchCoord (ix2 r c) a
    + (takeRows V R C wf).offCoord (ix2 r c) a = _
  rw [GatherDims.batchCoord_eq_zero _ _ _ List.not_mem_nil, Nat.add_zero]
  rcases axis2 a with rfl | rfl
  · have ho : (takeRows V R C wf).offCoord (ix2 r c) 0 = 0 :=
      GatherDims.offCoord_eq_zero _ _ _ (fun h => ((GatherDims.mem_sKept _ _).mp h).1 (List.mem_singleton.mpr rfl))
    have hs : (takeRows V R C wf).start (ix2 r c) idx 0 = min (idx (ix2 r 0)).toInt.toNat (V - 1) := by
      have hm : (0 : Fin (⟨2, ![V, C]⟩ : Shape).rank) ∈ (takeRows V R C wf).startIndexMap := List.mem_singleton.mpr rfl
      unfold GatherDims.start
      rw [dif_pos hm]
      have hsi : (takeRows V R C wf).siIdx (ix2 r c) ⟨List.idxOf (0 : Fin (⟨2, ![V, C]⟩ : Shape).rank) (takeRows V R C wf).startIndexMap,
            List.idxOf_lt_length_iff.2 hm⟩ = ix2 r 0 := by
        funext b; refine Fin.ext ?_
        match b with
        | ⟨0, _⟩ => rfl
        | ⟨1, _⟩ => rfl
      rw [hsi]
      rfl
    rw [hs, ho]
    rfl
  · have hs : (takeRows V R C wf).start (ix2 r c) idx 1 = 0 := by
      have hm : (1 : Fin (⟨2, ![V, C]⟩ : Shape).rank) ∉ (takeRows V R C wf).startIndexMap :=
        fun h => fin2_one_ne_zero (List.mem_singleton.mp h)
      unfold GatherDims.start
      rw [dif_neg hm]
    have ho : (takeRows V R C wf).offCoord (ix2 r c) 1 = c.val := by
      have hm : (1 : Fin (⟨2, ![V, C]⟩ : Shape).rank) ∈ (takeRows V R C wf).sKept := mem_kept_single fin2_one_ne_zero
      unfold GatherDims.offCoord
      rw [dif_pos hm]
      rfl
    rw [hs, ho]
    exact Nat.zero_add _

end Take

end Cert.LibRowScatter

end
-- ==== Proof.RefValue.lean ====
import proofs.«402920_j87531433492751_4_alg».proof.Proof.Gen.ReferenceIdeal.Run
import proofs.«402920_j87531433492751_4_alg».proof.Proof.Gen.ReferenceIdeal.Read
import proofs.«402920_j87531433492751_4_alg».proof.Proof.Spec
import proofs.«402920_j87531433492751_4_alg».proof.Proof.LibRowScatter
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Read Cert.LibRowScatter
open scoped BigOperators

/-! ## The two index columns -/

/-- Row 0 of the edge array, as the column the gather reads: under the stated range the wrap of a negative
    source is never taken. -/
theorem src_word (x1 : (⟨S2x640000, .i32⟩ : BufTy).Contents (Elt Ideal))
    (hsrc : ∀ j : Fin 640000, 0 ≤ (x1 (ix2 0 j)).toInt ∧ (x1 (ix2 0 j)).toInt < 10000) (j : Fin 640000) :
    val_main_v9 (F := Ideal) x1 (ix2 j 0) = x1 (ix2 0 j) := by
  have e9 : idx_main_v9 (ix2 j (0 : Fin 1)) = ix1 j := by
    funext a; match a with | ⟨0, _⟩ => rfl
  have e1 : idx_main_v0 (idx_main_v1 (ix1 j)) = ix2 0 j := by
    funext a; refine Fin.ext ?_
    match a with
    | ⟨0, _⟩ => rfl
    | ⟨1, _⟩ => exact Nat.mod_eq_of_lt j.isLt
  have h1 : val_main_v1 (F := Ideal) x1 (ix1 j) = x1 (ix2 0 j) := by
    rw [val_main_v1_apply, val_main_v0_apply, e1]
  rw [val_main_v9_apply, e9, val_main_v8_apply, val_main_v5_apply, h1, val_main_v4_apply, val_main_c_apply]
  have hn : IntOp.cmpi .slt (x1 (ix2 0 j)) 0#32 = 0#1 := by
    unfold IntOp.cmpi
    have : (x1 (ix2 0 j)).slt 0#32 = false := by
      rw [BitVec.slt_eq_decide]
      have := (hsrc j).1
      simp
      exact this
    simp [this]
  rw [hn, select_zero]

/-- Row 1 of the edge array, as the column the two scatters read. -/
theorem dst_word (x1 : (⟨S2x640000, .i32⟩ : BufTy).Contents (Elt Ideal)) (j : Fin 640000) :
    val_main_v12 (F := Ideal) x1 (ix2 j 0) = x1 (ix2 1 j) := by
  have e12 : idx_main_v12 (ix2 j (0 : Fin 1)) = ix1 j := by
    funext a; match a with | ⟨0, _⟩ => rfl
  have e3 : idx_main_v2 (idx_main_v3 (ix1 j)) = ix2 1 j := by
    funext a; refine Fin.ext ?_
    match a with
    | ⟨0, _⟩ => rfl
    | ⟨1, _⟩ => exact Nat.mod_eq_of_lt j.isLt
  rw [val_main_v12_apply, e12, val_main_v3_apply, val_main_v2_apply, e3]

theorem dst_word' (x1 : (⟨S2x640000, .i32⟩ : BufTy).Contents (Elt Ideal)) (j : Fin 640000) :
    val_main_v16 (F := Ideal) x1 (ix2 j 0) = x1 (ix2 1 j) := dst_word x1 j

/-! ## The row gather -/

/-- The gather's dimension numbers are those of a whole-row take. -/
theorem gather_dims :
    gather_S10000x128_S640000x1_S640000x128_1_0_n_n_0_1_1128
      = takeRows 10000 640000 128 gather_S10000x128_S640000x1_S640000x128_1_0_n_n_0_1_1128_wf := rfl

/-- The gathered array at (edge j, feature c): the source's row of x. -/
theorem gather_read (x0 : (⟨S10000x128, .f32⟩ : BufTy).Contents (Elt Ideal)) (x1 : (⟨S2x640000, .i32⟩ : BufTy).Contents (Elt Ideal))
    (hsrc : ∀ j : Fin 640000, 0 ≤ (x1 (ix2 0 j)).toInt ∧ (x1 (ix2 0 j)).toInt < 10000) (j : Fin 640000) (c : Fin 128) :
    val_main_v10 (F := Ideal) x0 x1 (ix2 j c) = x0 (ix2 (Cert.Gcn.srcRow (x1 (ix2 0 j))) c) := by
  unfold val_main_v10
  rw [gather_dims, gather_rows_apply (by decide)]
  simp only [src_word x1 hsrc j]
  rfl

/-! ## A word against a row number -/

/-- An index word, read signed, names row n exactly when it is the word of n. -/
theorem land_iff {N M : Nat} (hN : N ≤ 2147483648) (idx : IVec ⟨2, ![M, 1]⟩ 32) (j : Fin M) (n : Fin N) :
    landRow N idx j = some n ↔ idx (ix2 j 0) = BitVec.ofNat 32 n.val := by
  have hn := n.isLt
  have hw := (idx (ix2 j 0)).isLt
  have hti := BitVec.toInt_eq_toNat_cond (idx (ix2 j 0))
  unfold landRow
  constructor
  · intro h
    split at h
    · rename_i hin
      have e : (idx (ix2 j 0)).toInt.toNat = n.val := congrArg Fin.val (Option.some.inj h)
      apply BitVec.eq_of_toNat_eq
      rw [BitVec.toNat_ofNat]
      split at hti <;> omega
    · cases h
  · intro h
    have e : (idx (ix2 j 0)).toNat = n.val := by
      rw [h, BitVec.toNat_ofNat]; omega
    have hin : 0 ≤ (idx (ix2 j 0)).toInt ∧ (idx (ix2 j 0)).toInt < (N : Int) := by
      split at hti <;> omega
    rw [dif_pos hin]
    congr 1
    apply Fin.ext
    show (idx (ix2 j 0)).toInt.toNat = n.val
    split at hti <;> omega

/-- What an edge whose destination word is w adds to row n: its value when w names n, nothing otherwise. -/
theorem ite_land_eq_hit {N M : Nat} (hN : N ≤ 2147483648) (idx : IVec ⟨2, ![M, 1]⟩ 32) (j : Fin M) (n : Fin N) (a : EReal) :
    (if landRow N idx j = some n then a else 0) = Cert.Gcn.hit (idx (ix2 j 0)) n.val * a := by
  unfold Cert.Gcn.hit
  by_cases h : landRow N idx j = some n
  · rw [if_pos h, if_pos ((land_iff hN idx j n).1 h), one_mul]
  · rw [if_neg h, if_neg (fun e => h ((land_iff hN idx j n).2 e)), zero_mul]

/-! ## The accumulating row scatter, read at an entry -/

theorem map_ix2_eq_some {N C : Nat} (o : Option (Fin N)) (c k : Fin C) (n : Fin N) :
    o.map (fun m => ix2 m c) = some (ix2 n k) → o = some n ∧ c = k := by
  intro e
  cases o with
  | none => cases e
  | some m =>
    have e' : ix2 m c = ix2 n k := Option.some.inj e
    have e0 : m = n := congrFun e' 0
    have e1 : c = k := congrFun e' 1
    exact ⟨by rw [e0], e1⟩

/-- Entry (n, k) of the accumulating row scatter: the operand's entry plus entry k of every update row whose
    index names row n. -/
theorem scatterAdd_rows_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (k : Fin C) :
    Ideal.hostScatterAdd (rowsDims N M C wf) x idx upd (ix2 n k)
      = x (ix2 n k) + ∑ j : Fin M, if landRow N idx j = some n then upd (ix2 j k) else 0 := by
  unfold Ideal.hostScatterAdd
  congr 1
  rw [Finset.sum_filter, sum_idx2]
  refine Finset.sum_congr rfl fun j _ => ?_
  by_cases h : landRow N idx j = some n
  · rw [if_pos h, Finset.sum_eq_single k]
    · rw [if_pos]
      rw [resultIdx_rows, h]; rfl
    · intro c _ hc
      rw [if_neg]
      rw [resultIdx_rows]
      exact fun e => hc (map_ix2_eq_some _ c k n e).2
    · intro hk; exact absurd (Finset.mem_univ k) hk
  · rw [if_neg h]
    refine Finset.sum_eq_zero fun c _ => ?_
    rw [if_neg]
    rw [resultIdx_rows]
    exact fun e => h (map_ix2_eq_some _ c k n e).1

/-! ## The accumulating scatter of a vector, read at an entry -/

/-- The dimension numbers of x.at[idx].add(v) for a vector x of length N, an [M, 1] column of indices and M updates:
    update j goes to entry idx j. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update j lands on entry landRow j, and is dropped when its index is no entry. -/
theorem resultIdx_vec {N M w : Nat} (wf : ScatterDims.WF ⟨1, ![N]⟩ ⟨2, ![M, 1]⟩ ⟨1, ![M]⟩ [] [0] [0] 1)
    (idx : IVec ⟨2, ![M, 1]⟩ w) (j : Fin M) :
    (vecDims N M wf).resultIdx? (ix1 j) idx = (landRow N idx j).map (fun n => ix1 n) := by
  have ax : ∀ a : Fin (⟨1, ![N]⟩ : Shape).rank, a = 0 := fun a => by
    have h : a.val < 1 := a.isLt
    exact Fin.ext (by show a.val = 0; omega)
  have hs0 : (vecDims N M wf).start (ix1 j) idx 0 = (idx (ix2 j 0)).toInt := by
    have hm : (0 : Fin (⟨1, ![N]⟩ : Shape).rank) ∈ (vecDims N M wf).scatterDimsToOperandDims :=
      List.mem_singleton.mpr rfl
    unfold ScatterDims.start
    rw [dif_pos hm]
    have hsi : (vecDims N M wf).siIdx (ix1 j) ⟨List.idxOf (0 : Fin (⟨1, ![N]⟩ : Shape).rank) (vecDims N M wf).scatterDimsToOperandDims,
          List.idxOf_lt_length_iff.2 hm⟩ = ix2 j 0 := by
      funext b; refine Fin.ext ?_
      match b with
      | ⟨0, _⟩ => rfl
      | ⟨1, _⟩ => rfl
    rw [hsi]
  have hw0 : (vecDims N M wf).window (ix1 j) 0 = 0 := by
    have hm : (0 : Fin (⟨1, ![N]⟩ : Shape).rank) ∉ (vecDims N M wf).sKept := not_mem_kept_single _
    unfold ScatterDims.window
    rw [dif_neg hm]
  unfold ScatterDims.resultIdx? landRow
  by_cases hin : 0 ≤ (idx (ix2 j 0)).toInt ∧ (idx (ix2 j 0)).toInt < (N : Int)
  · have hall : ∀ a, 0 ≤ (vecDims N M wf).start (ix1 j) idx a + (vecDims N M wf).window (ix1 j) a
        ∧ (vecDims N M wf).start (ix1 j) idx a + (vecDims N M wf).window (ix1 j) a < (⟨1, ![N]⟩ : Shape).size a := by
      intro a
      rw [ax a, hs0, hw0]
      show _ ∧ _ < ((N : Nat) : Int)
      omega
    rw [dif_pos hall, dif_pos hin]
    show some _ = some _
    congr 1
    funext a
    refine Fin.ext ?_
    show ((vecDims N M wf).start (ix1 j) idx a + (vecDims N M wf).window (ix1 j) a).toNat = _
    rw [ax a, hs0, hw0]
    show ((idx (ix2 j 0)).toInt + ((0 : Nat) : Int)).toNat = (idx (ix2 j 0)).toInt.toNat
    omega
  · rw [dif_neg hin, dif_neg]
    · rfl
    · intro hall
      have h0 := hall 0
      rw [hs0, hw0] at h0
      have h0' : 0 ≤ (idx (ix2 j 0)).toInt + ((0 : Nat) : Int) ∧ (idx (ix2 j 0)).toInt + ((0 : Nat) : Int) < ((N : Nat) : Int) := h0
      exact hin (by omega)

/-- Entry n of the accumulating vector scatter: the operand's entry plus every update whose index names n. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (vecDims N M wf) x idx upd (ix1 n)
      = x (ix1 n) + ∑ j : Fin M, if landRow N idx j = some n then upd (ix1 j) else 0 := by
  unfold Ideal.hostScatterAdd
  congr 1
  rw [Finset.sum_filter]
  have hsum : ∀ f : (⟨1, ![M]⟩ : Shape).Idx → EReal, ∑ i, f i = ∑ j : Fin M, f (ix1 j) := by
    intro f
    refine (Fintype.sum_equiv ⟨fun j : Fin M => (ix1 j : (⟨1, ![M]⟩ : Shape).Idx), fun i => i 0, fun _ => rfl,
      fun i => (eq_ix1 i).symm⟩ _ _ (fun _ => rfl)).symm
  rw [hsum]
  refine Finset.sum_congr rfl fun j _ => ?_
  by_cases h : landRow N idx j = some n
  · rw [if_pos h, if_pos]
    rw [resultIdx_vec, h]; rfl
  · rw [if_neg h, if_neg]
    rw [resultIdx_vec]
    intro e
    cases hl : landRow N idx j with
    | none => rw [hl] at e; cases e
    | some m =>
      rw [hl] at e
      have e' : ix1 m = ix1 n := Option.some.inj e
      have e0 : m = n := congrFun e' 0
      exact h (by rw [hl, e0])

/-! ## The two scatters of the layer -/

theorem scatter_dims :
    scatter_S10000x128_S640000x1_S640000x128_1_0_0_1
      = rowsDims 10000 640000 128 scatter_S10000x128_S640000x1_S640000x128_1_0_0_1_wf := rfl

theorem vec_dims :
    scatter_S10000_S640000x1_S640000_n_0_0_1 = vecDims 10000 640000 scatter_S10000_S640000x1_S640000_n_0_0_1_wf := rfl

/-- On the extended reals the host's accumulating scatter is the exact one: each operand entry plus the sum of the
    updates that land on it. -/
theorem host_scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The word 0x3F800000 is the number one: sign 0, exponent 127, fraction 0. -/
theorem one_word : Ideal.ofBits .f32 0x3F800000#32 = 1 := by
  simp [Ideal.ofBits, Ideal.ieee]
  rw [← EReal.coe_mul]
  norm_num

/-- The summed features: zeros plus, for every edge into n, the gathered source row. -/
theorem agg_eq (x0 : (⟨S10000x128, .f32⟩ : BufTy).Contents (Elt Ideal)) (x1 : (⟨S2x640000, .i32⟩ : BufTy).Contents (Elt Ideal))
    (hsrc : ∀ j : Fin 640000, 0 ≤ (x1 (ix2 0 j)).toInt ∧ (x1 (ix2 0 j)).toInt < 10000) (n : Fin 10000) (k : Fin 128) :
    val_main_v13 (F := Ideal) x0 x1 (ix2 n k) = Cert.Gcn.agg x0 x1 n k := by
  unfold val_main_v13
  rw [host_scatterAdd_ideal, scatter_dims, scatterAdd_rows_apply, val_main_v11_apply, val_main_cst_apply,
    Ideal.ofBits_def, Ideal.ofBits_zero_f32, zero_add]
  unfold Cert.Gcn.agg
  refine Finset.sum_congr rfl fun j _ => ?_
  rw [ite_land_eq_hit (by decide), dst_word, gather_read x0 x1 hsrc]

/-- The edge count: zero plus one for every edge into n. -/
theorem deg_eq (x1 : (⟨S2x640000, .i32⟩ : BufTy).Contents (Elt Ideal)) (n : Fin 10000) :
    val_main_v17 (F := Ideal) x1 (ix1 n) = Cert.Gcn.deg x1 n := by
  unfold val_main_v17
  rw [host_scatterAdd_ideal, vec_dims, scatterAdd_vec_apply, val_main_v15_apply, val_main_cst_2_apply,
    Ideal.ofBits_def, Ideal.ofBits_zero_f32, zero_add]
  unfold Cert.Gcn.deg
  refine Finset.sum_congr rfl fun j _ => ?_
  rw [ite_land_eq_hit (by decide), dst_word', val_main_v14_apply, val_main_cst_1_apply, Ideal.ofBits_def, one_word, mul_one]

/-! ## The assembly -/

/-- The operand of the weights' product at (n, k): the mean of the neighbours' features plus the node's own. -/
theorem mixed_read (x0 : (⟨S10000x128, .f32⟩ : BufTy).Contents (Elt Ideal)) (x1 : (⟨S2x640000, .i32⟩ : BufTy).Contents (Elt Ideal))
    (hsrc : ∀ j : Fin 640000, 0 ≤ (x1 (ix2 0 j)).toInt ∧ (x1 (ix2 0 j)).toInt < 10000) (n : Fin 10000) (k : Fin 128) :
    val_main_v23 (F := Ideal) x0 x1 (ix2 n k)
      = Ideal.div (Cert.Gcn.agg x0 x1 n k) (max (Cert.Gcn.deg x1 n) Cert.Gcn.one32) + x0 (ix2 n k) := by
  have e : idx_main_v20 (idx_main_v21 (ix2 n k)) = ix1 n := by
    funext a; match a with | ⟨0, _⟩ => rfl
  rw [val_main_v23_apply, val_main_v22_apply, val_main_v21_apply, val_main_v20_apply, val_main_v19_apply, e,
    val_main_v18_apply, val_main_cst_3_apply, agg_eq x0 x1 hsrc, deg_eq]
  rfl

theorem ref_value (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal))
    (hsrc : ∀ j : Fin 640000, 0 ≤ (x1 (ix2 0 j)).toInt ∧ (x1 (ix2 0 j)).toInt < 10000) (n : Fin 10000) (o : Fin 128) :
    Cert.ReferenceIdeal.Read.val_main_v28 (F := Ideal) x0 x1 x2 x3 (ix2 n o) = Cert.Gcn.out x0 x1 x2 x3 n o := by
  have eb : idx_main_v25 (idx_main_v26 (ix2 n o)) = ix1 o := by
    funext a; match a with | ⟨0, _⟩ => rfl
  have el : ∀ k : Fin 128, lidx_main_v24 (ix2 n o) k = ix2 n k := by
    intro k; funext a; refine Fin.ext ?_
    match a with
    | ⟨0, _⟩ => rfl
    | ⟨1, _⟩ => rfl
  have er : ∀ k : Fin 128, ridx_main_v24 (ix2 n o) k = ix2 o k := by
    intro k; funext a; refine Fin.ext ?_
    match a with
    | ⟨0, _⟩ => rfl
    | ⟨1, _⟩ => rfl
  have hsum : (∑ k : Fin 128, (val_main_v23 (F := Ideal) x0 x1) (lidx_main_v24 (ix2 n o) k) * x2 (ridx_main_v24 (ix2 n o) k))
      = ∑ k : Fin 128, (Ideal.div (Cert.Gcn.agg x0 x1 n k) (max (Cert.Gcn.deg x1 n) Cert.Gcn.one32) + x0 (ix2 n k)) * x2 (ix2 o k) :=
    Finset.sum_congr rfl fun k _ => by rw [el, er, mixed_read x0 x1 hsrc]
  rw [val_main_v28_apply, val_main_v27_apply, val_main_v24_apply, hsum, val_main_call0_v0_apply, val_main_call0_cst_apply,
    val_main_v26_apply, val_main_v25_apply, eb]
  rfl

end Cert.ReferenceIdeal.RefValue

end
-- ==== Proof.KMath.lean ====
/-
  The arithmetic between the kernel's block-by-block sums on its padded arrays and the layer's specification,
  on the extended reals.

  One block: a step of the running sums adds, for each edge of the block, the edge's term; a step of the running
  counts adds the edge's count. All blocks: for an edge whose source word names a node, the one-hot product over
  the 10240 padded rows picks exactly the row the word names, which is a row of the true features; so the sums
  over all the edges are the specification's agg and deg on the first 10000 rows, and the last step gives out.
-/
import proofs.«402920_j87531433492751_4_alg».proof.Proof.Spec
import Mathlib.Algebra.BigOperators.Fin
import Mathlib.Algebra.BigOperators.Intervals
import Mathlib.Data.EReal.Basic

noncomputable section

namespace Cert.Gcn

open Idealize.ShloMosaic Idealize.ShloMosaic.ValueIdx
open scoped BigOperators

/-! ## One block -/

/-- A step of the running sums on block t adds the block's 1024 edge terms. -/
theorem stepOut_block (S : IVec ⟨2, ![640000, 1]⟩ 32) (Dd : IVec ⟨2, ![1, 640000]⟩ 32) (Xp : (⟨2, ![10240, 128]⟩ : Shape).Idx → EReal)
    (x0 : IVec ⟨2, ![1024, 1]⟩ 32) (x1 : IVec ⟨2, ![1, 1024]⟩ 32) (t : ℕ) (ht : t < 625)
    (h0 : ∀ e : Fin 1024, x0 (ix2 e 0) = colN S (1024 * t + e.val)) (h1 : ∀ e : Fin 1024, x1 (ix2 0 e) = rowWN Dd (1024 * t + e.val))
    (o : (⟨2, ![10240, 128]⟩ : Shape).Idx → EReal) (n : Fin 10240) (d : Fin 128) :
    stepOut x0 x1 Xp o n d = o (ix2 n d) + ∑ k : Fin 1024, term S Dd Xp n d (1024 * t + k.val) := by
  unfold stepOut
  congr 1
  refine Finset.sum_congr rfl fun e _ => ?_
  unfold term gath
  rw [h0 e, h1 e]

/-- A step of the running counts on block t adds the block's 1024 edge counts. -/
theorem stepDeg_block (Dd : IVec ⟨2, ![1, 640000]⟩ 32) (x1 : IVec ⟨2, ![1, 1024]⟩ 32) (t : ℕ)
    (h1 : ∀ e : Fin 1024, x1 (ix2 0 e) = rowWN Dd (1024 * t + e.val)) (s : (⟨2, ![10240, 1]⟩ : Shape).Idx → EReal) (n : Fin 10240) :
    stepDeg x1 s n = s (ix2 n 0) + ∑ k : Fin 1024, cnt Dd n (1024 * t + k.val) := by
  unfold stepDeg
  congr 1
  refine Finset.sum_congr rfl fun e _ => ?_
  unfold cnt
  rw [h1 e]

/-! ## A source word that names a node -/

/-- A word whose signed value is not negative has that value as its unsigned value. -/
theorem toInt_toNat_of_nonneg (w : BitVec 32) (hw : 0 ≤ w.toInt) : w.toInt.toNat = w.toNat := by
  have h := BitVec.toInt_eq_toNat_cond w
  have hlt := w.isLt
  split_ifs at h <;> omega

/-- Against such a word, a row number below 2^32 has weight one exactly when it is the word's value. -/
theorem hit_eq (w : BitVec 32) (hw : 0 ≤ w.toInt) (m : ℕ) (hm : m < 2 ^ 32) :
    hit w m = if m = w.toInt.toNat then 1 else 0 := by
  unfold hit
  rw [toInt_toNat_of_nonneg w hw]
  have key : (w = BitVec.ofNat 32 m) ↔ (m = w.toNat) := by
    constructor
    · intro h
      rw [h, BitVec.toNat_ofNat, Nat.mod_eq_of_lt hm]
    · intro h
      apply BitVec.eq_of_toNat_eq
      rw [BitVec.toNat_ofNat, Nat.mod_eq_of_lt hm, h]
  by_cases h : m = w.toNat
  · rw [if_pos h, if_pos (key.mpr h)]
  · rw [if_neg h, if_neg (fun h' => h (key.mp h'))]

/-- The one-hot product over the 10240 padded rows, for a word that names a node: only the row the word names
    has weight one, that row lies among the first 10000, and there the padded features are the true ones. -/
theorem gather_eq (x : (⟨2, ![10000, 128]⟩ : Shape).Idx → EReal) (Xp : (⟨2, ![10240, 128]⟩ : Shape).Idx → EReal)
    (hX : ∀ (n : Fin 10240) (d : Fin 128), Xp (ix2 n d) = if h : n.val < 10000 then x (ix2 ⟨n.val, h⟩ d) else 0)
    (w : BitVec 32) (hw0 : 0 ≤ w.toInt) (hw1 : w.toInt < 10000) (d : Fin 128) :
    ∑ n' ∈ Finset.range 10240, hit w n' * rowN Xp n' d = x (ix2 (srcRow w) d) := by
  have hm : w.toInt.toNat < 10000 := by omega
  have hs : srcRow w = ⟨w.toInt.toNat, hm⟩ := Fin.ext (Nat.min_eq_left (by omega))
  rw [Finset.sum_eq_single w.toInt.toNat]
  · rw [hit_eq w hw0 _ (by omega), if_pos rfl, one_mul]
    unfold rowN
    rw [dif_pos (by omega : w.toInt.toNat < 10240), hX, dif_pos hm, hs]
  · intro m hmr hne
    have := Finset.mem_range.mp hmr
    rw [hit_eq w hw0 m (by omega), if_neg hne, zero_mul]
  · intro h
    exact absurd (Finset.mem_range.mpr (by omega)) h

/-! ## All the blocks -/

section total

variable (x : (⟨2, ![10000, 128]⟩ : Shape).Idx → EReal) (ei : IVec ⟨2, ![2, 640000]⟩ 32)
    (S : IVec ⟨2, ![640000, 1]⟩ 32) (Dd : IVec ⟨2, ![1, 640000]⟩ 32) (Xp : (⟨2, ![10240, 128]⟩ : Shape).Idx → EReal)

/-- The count an edge adds is the specification's weight of its destination word. -/
theorem cnt_eq (hD : ∀ j : Fin 640000, Dd (ix2 0 j) = ei (ix2 1 j)) (n : Fin 10240) (j : Fin 640000) :
    cnt Dd n j.val = hit (ei (ix2 1 j)) n.val := by
  unfold cnt rowWN
  rw [dif_pos j.isLt]
  exact congrArg (fun w => hit w n.val) (hD j)

/-- The term an edge adds is the specification's: its destination's weight times its source's true feature. -/
theorem term_eq (hS : ∀ j : Fin 640000, S (ix2 j 0) = ei (ix2 0 j)) (hD : ∀ j : Fin 640000, Dd (ix2 0 j) = ei (ix2 1 j))
    (hX : ∀ (n : Fin 10240) (d : Fin 128), Xp (ix2 n d) = if h : n.val < 10000 then x (ix2 ⟨n.val, h⟩ d) else 0)
    (hsrc : ∀ j : Fin 640000, 0 ≤ (ei (ix2 0 j)).toInt ∧ (ei (ix2 0 j)).toInt < 10000)
    (n : Fin 10240) (d : Fin 128) (j : Fin 640000) :
    term S Dd Xp n d j.val = hit (ei (ix2 1 j)) n.val * x (ix2 (srcRow (ei (ix2 0 j))) d) := by
  have hc : colN S j.val = ei (ix2 0 j) := by
    unfold colN
    rw [dif_pos j.isLt]
    exact hS j
  have hr : rowWN Dd j.val = ei (ix2 1 j) := by
    unfold rowWN
    rw [dif_pos j.isLt]
    exact hD j
  unfold term
  rw [hc, hr, gather_eq x Xp hX _ (hsrc j).1 (hsrc j).2]

/-- On the first 10000 rows the kernel's sums are the specification's agg. -/
theorem aggK_eq_agg (hS : ∀ j : Fin 640000, S (ix2 j 0) = ei (ix2 0 j)) (hD : ∀ j : Fin 640000, Dd (ix2 0 j) = ei (ix2 1 j))
    (hX : ∀ (n : Fin 10240) (d : Fin 128), Xp (ix2 n d) = if h : n.val < 10000 then x (ix2 ⟨n.val, h⟩ d) else 0)
    (hsrc : ∀ j : Fin 640000, 0 ≤ (ei (ix2 0 j)).toInt ∧ (ei (ix2 0 j)).toInt < 10000)
    (n : Fin 10000) (d : Fin 128) :
    aggK S Dd Xp ⟨n.val, by omega⟩ d = agg x ei n d := by
  unfold aggK agg
  rw [← Fin.sum_univ_eq_sum_range (fun j => term S Dd Xp ⟨n.val, by omega⟩ d j) 640000]
  exact Finset.sum_congr rfl fun j _ => term_eq x ei S Dd Xp hS hD hX hsrc ⟨n.val, by omega⟩ d j

/-- On the first 10000 rows the kernel's counts are the specification's deg. -/
theorem degK_eq_deg (hD : ∀ j : Fin 640000, Dd (ix2 0 j) = ei (ix2 1 j)) (n : Fin 10000) :
    degK Dd ⟨n.val, by omega⟩ = deg ei n := by
  unfold degK deg
  rw [← Fin.sum_univ_eq_sum_range (fun j => cnt Dd ⟨n.val, by omega⟩ j) 640000]
  exact Finset.sum_congr rfl fun j _ => cnt_eq ei Dd hD ⟨n.val, by omega⟩ j

end total

/-- The kernel's output on the first 10000 rows is the layer's. -/
theorem outK_eq_out (x : (⟨2, ![10000, 128]⟩ : Shape).Idx → EReal) (ei : IVec ⟨2, ![2, 640000]⟩ 32)
    (W : (⟨2, ![128, 128]⟩ : Shape).Idx → EReal) (b : (⟨1, ![128]⟩ : Shape).Idx → EReal)
    (S : IVec ⟨2, ![640000, 1]⟩ 32) (Dd : IVec ⟨2, ![1, 640000]⟩ 32) (Xp : (⟨2, ![10240, 128]⟩ : Shape).Idx → EReal)
    (hS : ∀ j : Fin 640000, S (ix2 j 0) = ei (ix2 0 j)) (hD : ∀ j : Fin 640000, Dd (ix2 0 j) = ei (ix2 1 j))
    (hX : ∀ (n : Fin 10240) (d : Fin 128), Xp (ix2 n d) = if h : n.val < 10000 then x (ix2 ⟨n.val, h⟩ d) else 0)
    (hsrc : ∀ j : Fin 640000, 0 ≤ (ei (ix2 0 j)).toInt ∧ (ei (ix2 0 j)).toInt < 10000)
    (n : Fin 10000) (o : Fin 128) :
    outK S Dd Xp W b ⟨n.val, by omega⟩ o = out x ei W b n o := by
  have hx : ∀ k : Fin 128, Xp (ix2 (⟨n.val, by omega⟩ : Fin 10240) k) = x (ix2 n k) := fun k => by
    rw [hX]
    exact dif_pos n.isLt
  unfold outK epi out
  rw [degK_eq_deg ei Dd hD n]
  refine congrArg (fun s => max (s + b (ix1 o)) zero32) ?_
  refine Finset.sum_congr rfl fun k _ => ?_
  rw [aggK_eq_agg x ei S Dd Xp hS hD hX hsrc n k, hx k]

end Cert.Gcn

end
-- ==== Proof.KHost.lean ====
import proofs.«402920_j87531433492751_4_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

/-!
# The kernel program's host side before the region, read at an index

Before the region is entered the host lines of `@main` cut the edge array `main_arg1 : i32[2, 640000]` into its
two rows, flatten each, pass each through a pad that pads nothing, and lay row 0 as the source column
`main_v5 : i32[640000, 1]` and row 1 as the destination row `main_v7 : i32[1, 640000]`; and they append 240 rows
of the converted integer zero to the features `main_arg0 : f32[10000, 128]`, giving `main_v8 : f32[10240, 128]`.

Here each of these arrays is read at an index as the launch contents at an index (`V_src`, `V_dst`, `V_xp`), and each
input window's block at a grid point is read off its array: the source column in runs of 1024 rows, the destination
row in runs of 1024 columns, the other three arrays whole.
-/

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Two layout operations at an index -/

section Layout
variable {α : Type}

/-- A vector laid as a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A pad of a vector with no padding on either side and none between the entries reads every entry where it was:
    the padding value is never read. -/
theorem pad_nothing_apply {a : ℕ} (x : (⟨1, ![a]⟩ : Shape).Idx → α) {u : Shape} (v : u.Idx → α)
    (h : (⟨1, ![a]⟩ : Shape).Pads (![0] : Fin 1 → Nat) ![0] ![0] ⟨1, ![a]⟩) (hu : 0 < u.numel) (j : Fin a) :
    pad ⟨1, ![a]⟩ ![0] ![0] ![0] x v h hu (ix1 j) = x (ix1 j) :=
  pad_apply_of_inside _ _ _ x v h hu (ix1 j) (ix1 j) (fun b => by
    have hb : b = 0 := Subsingleton.elim _ _
    subst hb
    show j.val = 0 + j.val * (0 + 1)
    omega)

end Layout

variable (m : (ℓ : Loc nD τ sig) → Buf (Elt Ideal) ℓ) (c : Dev nD)

/-! ## The arrays the host operations before the region wrote, as terms of the launch contents -/

/-- The source column: row 0 of the edge array, flattened, padded by nothing, laid as a column. -/
theorem V_src_term :
    (V m c main_v5 : S640000x1.Idx → BitVec 32) =
      shapeCast S640000x1
        (pad S640000 ![0] ![0] ![0]
          (shapeCast S640000
            (extractStridedSlice S1x640000 ![0, 0] (m ((c : Thread nD τ).loc main_arg1) : S2x640000.Idx → BitVec 32)
              slices_S2x640000_S1x640000_0_0) shapeCasts_S1x640000_S640000)
          (constantI S_ 32 0#32) pads_S640000_S640000_000 h_S_)
        shapeCasts_S640000_S640000x1 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  show shapeCast S640000x1 _ shapeCasts_S640000_S640000x1 = shapeCast S640000x1 _ shapeCasts_S640000_S640000x1
  refine congrArg (fun x => shapeCast S640000x1 x shapeCasts_S640000_S640000x1) ?_
  show pad S640000 ![0] ![0] ![0] (_ : S640000.Idx → BitVec 32) (_ : S_.Idx → BitVec 32) pads_S640000_S640000_000 h_S_ = _
  refine congrArg₂ (fun x v => pad S640000 ![0] ![0] ![0] (x : S640000.Idx → BitVec 32) (v : S_.Idx → BitVec 32) pads_S640000_S640000_000 h_S_) ?_ ?_
  · rfl
  · rfl

/-- The destination row: row 1 of the edge array, flattened, padded by nothing, laid as a row. -/
theorem V_dst_term :
    (V m c main_v7 : S1x640000.Idx → BitVec 32) =
      shapeCast S1x640000
        (pad S640000 ![0] ![0] ![0]
          (shapeCast S640000
            (extractStridedSlice S1x640000 ![1, 0] (m ((c : Thread nD τ).loc main_arg1) : S2x640000.Idx → BitVec 32)
              slices_S2x640000_S1x640000_1_0) shapeCasts_S1x640000_S640000)
          (constantI S_ 32 10240#32) pads_S640000_S640000_000 h_S_)
        shapeCasts_S640000_S1x640000 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  show shapeCast S1x640000 _ shapeCasts_S640000_S1x640000 = shapeCast S1x640000 _ shapeCasts_S640000_S1x640000
  refine congrArg (fun x => shapeCast S1x640000 x shapeCasts_S640000_S1x640000) ?_
  show pad S640000 ![0] ![0] ![0] (_ : S640000.Idx → BitVec 32) (_ : S_.Idx → BitVec 32) pads_S640000_S640000_000 h_S_ = _
  refine congrArg₂ (fun x v => pad S640000 ![0] ![0] ![0] (x : S640000.Idx → BitVec 32) (v : S_.Idx → BitVec 32) pads_S640000_S640000_000 h_S_) ?_ ?_
  · rfl
  · rfl

/-- The features, 240 rows of the converted integer zero appended. -/
theorem V_xp_term :
    (V m c main_v8 : S10240x128.Idx → Ideal .f32) =
      pad S10240x128 ![0, 0] ![240, 0] ![0, 0] (m ((c : Thread nD τ).loc main_arg0) : S10000x128.Idx → Ideal .f32)
        (sitofp (F := Ideal) .f32 (constantI S_ 32 0#32)) pads_S10000x128_S10240x128_02400_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-! ## The three arrays at an index -/

/-- The source column at row `j` is row 0 of the edge array at column `j`. -/
theorem V_src (j : Fin 640000) :
    (V m c main_v5 : S640000x1.Idx → BitVec 32) (ix2 j (0 : Fin 1))
      = (m ((c : Thread nD τ).loc main_arg1) : S2x640000.Idx → BitVec 32) (ix2 (0 : Fin 2) j) := by
  refine (congrFun (V_src_term m c) (ix2 j (0 : Fin 1))).trans ?_
  rw [shapeCast_a_a1_apply, pad_nothing_apply, shapeCast_1a_a_apply]
  exact slice2_axis0_apply 0 _ _ (0 : Fin 1) j (0 : Fin 2) rfl

/-- The destination row at column `j` is row 1 of the edge array at column `j`. -/
theorem V_dst (j : Fin 640000) :
    (V m c main_v7 : S1x640000.Idx → BitVec 32) (ix2 (0 : Fin 1) j)
      = (m ((c : Thread nD τ).loc main_arg1) : S2x640000.Idx → BitVec 32) (ix2 (1 : Fin 2) j) := by
  refine (congrFun (V_dst_term m c) (ix2 (0 : Fin 1) j)).trans ?_
  rw [shapeCast_a_1a_apply, pad_nothing_apply, shapeCast_1a_a_apply]
  exact slice2_axis0_apply 1 _ _ (0 : Fin 1) j (1 : Fin 2) rfl

/-- The padded features at `(n, d)`: the features there on the first 10000 rows, zero on the 240 appended. -/
theorem V_xp (n : Fin 10240) (d : Fin 128) :
    (V m c main_v8 : S10240x128.Idx → Ideal .f32) (ix2 n d)
      = (if h : n.val < 10000 then (m ((c : Thread nD τ).loc main_arg0) : S10000x128.Idx → Ideal .f32) (ix2 ⟨n.val, h⟩ d)
          else (0 : Ideal .f32) : Ideal .f32) := by
  refine (congrFun (V_xp_term m c) (ix2 n d)).trans ?_
  by_cases h : n.val < 10000
  · rw [dif_pos h]
    exact pad_apply_of_inside _ _ _ _ _ _ _ (ix2 n d) (ix2 (⟨n.val, h⟩ : Fin 10000) d) (fun b => by
      match b with
      | ⟨0, _⟩ => show n.val = 0 + n.val * (0 + 1); omega
      | ⟨1, _⟩ => show d.val = 0 + d.val * (0 + 1); omega)
  · rw [dif_neg h]
    refine (pad_apply_of_not_inside _ _ _ _ _ _ _ (ix2 n d) (0 : Fin 2) (fun hin => h ?_)).trans ?_
    · have h2 : (n.val - 0) / (0 + 1) < 10000 := hin.2.2
      omega
    · show ((((0#32 : BitVec 32).toInt : ℤ) : ℝ) : EReal) = 0
      simp

/-! ## The input windows' blocks -/

/-- The grid's points number 625. -/
theorem point_lt (t : Fin cfg0.N) : t.val < 625 := lt_of_lt_of_eq t.isLt N_0

/-- Run `t` of 1024 consecutive positions lies inside the 640000 edges. -/
theorem run_lt (t : Fin cfg0.N) (e : Fin 1024) : 1024 * t.val + e.val < 640000 := by
  have ht := point_lt t
  have he := e.isLt
  omega

/-- The printed index maps, decided over the grid: the source column's block index is `(t, 0)`, the destination
    row's `(0, t)`, and the three whole-array windows stay at block index zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- The source column's block at point `t` is rows `1024 t … 1024 t + 1023` of the column. -/
theorem iblk0_apply (t : Fin cfg0.N) (e : Fin 1024) :
    (iblk m c 0 t : S1024x1.Idx → BitVec 32) (ix2 e (0 : Fin 1))
      = (V m c main_v5 : S640000x1.Idx → BitVec 32) (ix2 (⟨1024 * t.val + e.val, run_lt t e⟩ : Fin 640000) (0 : Fin 1)) := by
  obtain ⟨h0, h1, -⟩ := idx_facts t
  unfold iblk
  rw [View.read_apply]
  show V m c main_v5 (((cfg0.win 0).blk t).view.emb (ix2 e (0 : Fin 1))) = V m c main_v5 _
  congr 1
  funext a
  apply Fin.ext
  match a with
  | ⟨0, _⟩ => show win0_0.index t (0 : Fin 2) * 1024 + 1 * e.val = 1024 * t.val + e.val; rw [h0]; omega
  | ⟨1, _⟩ => show win0_0.index t (1 : Fin 2) * 1 + 1 * 0 = 0; rw [h1]

/-- The destination row's block at point `t` is columns `1024 t … 1024 t + 1023` of the row. -/
theorem iblk1_apply (t : Fin cfg0.N) (e : Fin 1024) :
    (iblk m c 1 t : S1x1024.Idx → BitVec 32) (ix2 (0 : Fin 1) e)
      = (V m c main_v7 : S1x640000.Idx → BitVec 32) (ix2 (0 : Fin 1) (⟨1024 * t.val + e.val, run_lt t e⟩ : Fin 640000)) := by
  obtain ⟨-, -, h0, h1, -⟩ := idx_facts t
  unfold iblk
  rw [View.read_apply]
  show V m c main_v7 (((cfg0.win 1).blk t).view.emb (ix2 (0 : Fin 1) e)) = V m c main_v7 _
  congr 1
  funext a
  apply Fin.ext
  match a with
  | ⟨0, _⟩ => show win0_1.index t (0 : Fin 2) * 1 + 1 * 0 = 0; rw [h0]
  | ⟨1, _⟩ => show win0_1.index t (1 : Fin 2) * 1024 + 1 * e.val = 1024 * t.val + e.val; rw [h1]; omega

/-- The padded features are staged whole at every point. -/
theorem iblk2_eq (t : Fin cfg0.N) :
    (iblk m c 2 t : S10240x128.Idx → Ideal .f32) = (V m c main_v8 : S10240x128.Idx → Ideal .f32) := by
  obtain ⟨-, -, -, -, h0, h1, -⟩ := idx_facts t
  funext y
  unfold iblk
  rw [View.read_apply]
  show V m c main_v8 (((cfg0.win 2).blk t).view.emb y) = V m c main_v8 y
  congr 1
  funext a
  apply Fin.ext
  match a with
  | ⟨0, _⟩ => show win0_2.index t (0 : Fin 2) * 10240 + 1 * (y 0).val = (y 0).val; rw [h0]; omega
  | ⟨1, _⟩ => show win0_2.index t (1 : Fin 2) * 128 + 1 * (y 1).val = (y 1).val; rw [h1]; omega

/-- The weight matrix is staged whole at every point, as launched. -/
theorem iblk3_eq (t : Fin cfg0.N) :
    (iblk m c 3 t : S128x128.Idx → Ideal .f32) = (m ((c : Thread nD τ).loc main_arg2) : S128x128.Idx → Ideal .f32) := by
  obtain ⟨-, -, -, -, -, -, h0, h1, -⟩ := idx_facts t
  refine Eq.trans ?_ (V_main_arg2 m c)
  funext y
  unfold iblk
  rw [View.read_apply]
  show V m c main_arg2 (((cfg0.win 3).blk t).view.emb y) = V m c main_arg2 y
  congr 1
  funext a
  apply Fin.ext
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

/-- The bias is staged whole at every point, as launched. -/
theorem iblk4_eq (t : Fin cfg0.N) :
    (iblk m c 4 t : S128.Idx → Ideal .f32) = (m ((c : Thread nD τ).loc main_arg3) : S128.Idx → Ideal .f32) := by
  obtain ⟨-, -, -, -, -, -, -, -, h0⟩ := idx_facts t
  refine Eq.trans ?_ (V_main_arg3 m c)
  funext y
  unfold iblk
  rw [View.read_apply]
  show V m c main_arg3 (((cfg0.win 4).blk t).view.emb y) = V m c main_arg3 y
  congr 1
  funext a
  apply Fin.ext
  match a with
  | ⟨0, _⟩ => show win0_4.index t (0 : Fin 1) * 128 + 1 * (y 0).val = (y 0).val; rw [h0]; omega

end Cert.KernelIdeal.KHost

end
-- ==== Proof.KRun.lean ====
/-
  From the last grid point's block to the program's result.

  The region's one output window holds the whole array as a single block whose block index never moves, so the
  pipeline writes it back exactly once, after the last grid point. The array therefore ends holding what the last
  point's body left in the window's buffer; the program's result is that array with its padding rows cut away.
-/
import proofs.«402920_j87531433492751_4_alg».proof.Proof.Gen.KernelIdeal.Frame
import Idealize.ShloMosaic.Lib.Pipeline.Value
import Idealize.ShloMosaic.Lib.Pipeline.FrameSuffix
import Idealize.ShloMosaic.Lib.ValueLayout
import Idealize.ShloMosaic.Lib.Tactic

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- The output window is written back at the last grid point only. -/
theorem flush_point (t : Fin cfg0.N) (hf : (cfg0.win 5).flush t = true) : t.val = 624 := by
  have h1 := (flush0_5 t).mp hf
  have h2 : t.val < 625 := lt_of_lt_of_eq t.isLt (show cfg0.N = 625 from N_0)
  omega

/-- The last grid point does write it back. -/
theorem flush_last (h : 624 < cfg0.N) : (cfg0.win 5).flush ⟨624, h⟩ = true :=
  (flush0_5 ⟨624, h⟩).mpr rfl

/-- The output window's block index is (0, 0) at every point. -/
theorem index_row (t : Fin cfg0.N) : win0_5.index t 0 = 0 := rfl
theorem index_col (t : Fin cfg0.N) : win0_5.index t 1 = 0 := rfl

/-- So its block starts at the array's origin. -/
theorem blk_origin (t : Fin cfg0.N) :
    (fun a => win0_5.index t a * main_v9.ty.shape.size a) = fun _ => 0 :=
  funext fun a => by
    match a with
    | ⟨0, _⟩ => show win0_5.index t 0 * _ = 0; rw [index_row, Nat.zero_mul]
    | ⟨1, _⟩ => show win0_5.index t 1 * _ = 0; rw [index_col, Nat.zero_mul]

/-- What the one write-back writes: the window's block is the whole array, so reading the block of `Fn` gives `Fn`. -/
theorem flushed_eq (c : Dev nD) (Fn : Vec Ideal S10240x128 .f32)
    (hfin : ∀ h : 624 < cfg0.N, (outsAt0 (F := Ideal) m c 624 h).1 = Fn)
    (t : Fin cfg0.N) (hf : (cfg0.win 5).flush t = true) :
    (dats (F := Ideal) m 0 c).flushed 5 t = ((cfg0.win 5).blk t).view.read (Elt Ideal) Fn := by
  have h1 := flush_point t hf
  have h : 624 < cfg0.N := h1 ▸ t.isLt
  obtain rfl : t = ⟨624, h⟩ := Fin.ext h1
  show (cfg0.win 5).cut (grid0.coords ⟨624, h⟩) ((dats (F := Ideal) m 0 c).after 5 ⟨624, h⟩) = _
  rw [after0_5]
  have e : (outsAt0 (F := Ideal) m c (⟨624, h⟩ : Fin cfg0.N).val (⟨624, h⟩ : Fin cfg0.N).isLt).1 = Fn := hfin h
  rw [e]
  exact (Memref.read_access_unit_zero (Elt Ideal) main_v9 (blk_origin ⟨624, h⟩)
    (fun a => by rw [congrFun (blk_origin ⟨624, h⟩) a]; simp) Fn).symm

/-- Every index of the array lies in the last point's block. -/
theorem mem_last_blk (h : 624 < cfg0.N) (i : S10240x128.Idx) : i ∈ ((cfg0.win 5).blk ⟨624, h⟩).view.set := by
  show i ∈ ((View.whole main_v9).slice (win0_5.rect ⟨624, h⟩)).set
  rw [View.set_slice_whole, Rect.mem_set_unit]
  intro a
  have h0 : (i 0).val < 10240 := (i 0).isLt
  have h1 : (i 1).val < 128 := (i 1).isLt
  match a with
  | ⟨0, _⟩ =>
    show win0_5.index ⟨624, h⟩ 0 * win0_5.size 0 ≤ (i 0).val ∧ (i 0).val < win0_5.index ⟨624, h⟩ 0 * win0_5.size 0 + win0_5.xsize (grid0.coords ⟨624, h⟩) 0
    rw [index_row, Nat.zero_mul, show win0_5.xsize (grid0.coords ⟨624, h⟩) 0 = 10240 from rfl]
    omega
  | ⟨1, _⟩ =>
    show win0_5.index ⟨624, h⟩ 1 * win0_5.size 1 ≤ (i 1).val ∧ (i 1).val < win0_5.index ⟨624, h⟩ 1 * win0_5.size 1 + win0_5.xsize (grid0.coords ⟨624, h⟩) 1
    rw [index_col, Nat.zero_mul, show win0_5.xsize (grid0.coords ⟨624, h⟩) 1 = 128 from rfl]
    omega

/-- THE REGION'S OUTPUT ARRAY after the run: what the last grid point's body left in the output window's buffer. -/
theorem final_array (c : Dev nD) (Fn : Vec Ideal S10240x128 .f32)
    (hfin : ∀ h : 624 < cfg0.N, (outsAt0 (F := Ideal) m c 624 h).1 = Fn) :
    (dats (F := Ideal) m 0 c).arrAt 5 cfg0.N = Fn :=
  have hN : 624 < cfg0.N := by rw [show cfg0.N = 625 from N_0]; decide
  (dats (F := Ideal) m 0 c).arrAt_eq_of_cover 5 Fn (flushed_eq m c Fn hfin) fun i =>
    ⟨⟨624, hN⟩, flush_last hN, mem_last_blk hN i⟩

/-- The region's output array, as the lines after the region find it. -/
theorem tail_input (c : Dev nD) (Fn : Vec Ideal S10240x128 .f32)
    (hfin : ∀ h : 624 < cfg0.N, (outsAt0 (F := Ideal) m c 624 h).1 = Fn) :
    Pipeline.withArrays spec0 c (V0 m c) (fun w => (dats (F := Ideal) m 0 c).arrAt w cfg0.N) (Proc.devRef .tc main_v9) = Fn :=
  (Pipeline.withArrays_arr spec0 launch0.win.arr_inj c _ _ 5).trans (final_array m c Fn hfin)

/-- THE PROGRAM'S RESULT as the one line after the region leaves it: rows 0 to 9999 of the region's output array. -/
theorem tail_result (c : Dev nD) (Fn : Vec Ideal S10240x128 .f32)
    (hfin : ∀ h : 624 < cfg0.N, (outsAt0 (F := Ideal) m c 624 h).1 = Fn) :
    Pipeline.afterTail₀ cfgs (dats (F := Ideal) m) 0 (V0 m) [hostOps1] c main_v10
      = (fun i : S10000x128.Idx => Fn (ValueIdx.ix2 ⟨(i 0).val, lt_trans (i 0).isLt (by decide)⟩ ⟨(i 1).val, (i 1).isLt⟩)) := by
  unfold Pipeline.afterTail₀
  show StableHlo.after hostOps1 _ (Proc.devRef .tc main_v10) = _
  after_results
  refine (congrArg (fun X : Vec Ideal S10240x128 .f32 => extractStridedSlice S10000x128 ![0, 0] X slices_S10240x128_S10000x128_0_0)
    (tail_input m c Fn hfin)).trans ?_
  funext i
  exact extractStridedSlice_apply _ _ _ i _ (fun a => by
    match a with
    | ⟨0, _⟩ => exact (Nat.zero_add _).symm
    | ⟨1, _⟩ => exact (Nat.zero_add _).symm)

/-- THE KERNEL PROGRAM'S RUN, READ: every weakly fair execution terminates with the result array at rows 0 to 9999 of
    what the last grid point's body left in the output window's buffer, and the four argument arrays as launched. -/
theorem kernel_run (Fn : Dev nD → Vec Ideal S10240x128 .f32)
    (hfin : ∀ (c : Dev nD) (h : 624 < cfg0.N), (outsAt0 (F := Ideal) m c 624 h).1 = Fn c) :
    θ_run defs (onTc (τ := τ) (main (F := Ideal))) ⟨m, fun _ => 0, ρ⟩ (fun r => ∀ c : Dev nD,
      r.2.mem ((c.tc : Thread nD τ).loc main_v10)
        = (fun i : S10000x128.Idx => Fn c (ValueIdx.ix2 ⟨(i 0).val, lt_trans (i 0).isLt (by decide)⟩ ⟨(i 1).val, (i 1).isLt⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (tail_result m c (Fn c) (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_main m ρ)

/-- info: 'Cert.KernelIdeal.KRun.kernel_run' depends on axioms: [propext, Classical.choice, Quot.sound] -/
#guard_msgs in #print axioms kernel_run

end Cert.KernelIdeal.KRun

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.RunNorm.lean ====
/-
  Reading back what a sequence of stores through literal rectangles leaves.

  A buffer written by a list of stores (newest first) and then loaded through a box reads:
  the newest store's payload when the box is that store's own rectangle; what the older stores left when the
  newest store's rectangle is separated from the box on some axis; and, when the newest store fills the whole
  buffer, that store's payload at the box's indices. These three facts, used outermost first, turn every load of
  a kernel body into a closed term over the body's inputs without ever opening the stores that a later store hides.
-/
import Idealize.ShloMosaic.Lib.Pipeline.Value

noncomputable section

namespace Cert.RunNorm

open Idealize.ShloMosaic

variable {sig : RefSig} {κ : Kind} {sp : Space} {s : Shape} {e : EltTy} {Val : EltTy → Type}

/-- A load whose box is separated, on some axis, from the newest store's rectangle reads what the older stores left. -/
theorem readCov_cons_of_disj [∀ e, Nonempty (Val e)] (v : View sig κ sp s e) (r : Rect s) (w : r.shape.Idx → Val e)
    (L : List (View.Piece Val s e)) (B : LoadRect s) (h : LoadRect.disj r B = true) :
    v.readCov (⟨r, w⟩ :: L) B = v.readCov L B :=
  View.readCov_cons_of_disjoint v ⟨r, w⟩ L B
    (Finset.disjoint_right.mpr fun i hi hp => by
      obtain ⟨j, rfl⟩ := B.exists_idx_of_mem hi
      exact LoadRect.idx_not_mem_of_disj h j hp)

/-- A load after a newest store that fills the whole buffer reads that store's payload at the box's indices. -/
theorem readCov_cons_whole [∀ e, Nonempty (Val e)] (v : View sig κ sp s e) {off : Fin s.rank → Nat}
    (h : off = fun _ => 0) (inb : ∀ a, off a + s.size a ≤ s.size a) (w : s.Idx → Val e)
    (L : List (View.Piece Val s e)) (B : LoadRect s) :
    v.readCov ((⟨Rect.unit off s.size inb, w⟩ : View.Piece Val s e) :: L) B = fun j => w (B.idx j) := by
  rw [View.readCov_eq_canon', View.canon_cons_unit_zero h inb w L]

/-- The same for a two-axis buffer, with the zero offset spelt `![0, 0]`. -/
theorem readCov_cons_whole2 [∀ e, Nonempty (Val e)] {d : Fin 2 → Nat} (v : View sig κ sp ⟨2, d⟩ e)
    (inb : ∀ a, (![0, 0] : Fin 2 → Nat) a + (⟨2, d⟩ : Shape).size a ≤ (⟨2, d⟩ : Shape).size a) (w : (⟨2, d⟩ : Shape).Idx → Val e)
    (L : List (View.Piece Val ⟨2, d⟩ e)) (B : LoadRect ⟨2, d⟩) :
    v.readCov ((⟨Rect.unit ![0, 0] (⟨2, d⟩ : Shape).size inb, w⟩ : View.Piece Val ⟨2, d⟩ e) :: L) B = fun j => w (B.idx j) :=
  readCov_cons_whole v (by funext a; match a with | ⟨0, _⟩ => rfl | ⟨1, _⟩ => rfl) inb w L B

/-- The two-axis offset written `![0, 0]` is the zero offset. -/
theorem off2_zero : (![0, 0] : Fin 2 → Nat) = fun _ => 0 := by
  funext a; match a with | ⟨0, _⟩ => rfl | ⟨1, _⟩ => rfl

/-- The one-axis offset written `![0]` is the zero offset. -/
theorem off1_zero : (![0] : Fin 1 → Nat) = fun _ => 0 := by
  funext a; match a with | ⟨0, _⟩ => rfl

/-- When the first stores of a list all write blocks of one function `G` of the buffer's index and some one of them
    covers `y`, the list reads `G y` at `y`, whatever the older stores after them are. -/
theorem canon_append_of_cover [∀ e, Nonempty (Val e)] (G : s.Idx → Val e) :
    ∀ (L₁ L₂ : List (View.Piece Val s e)) (_ : ∀ p ∈ L₁, ∀ x : p.1.shape.Idx, p.2 x = G (p.1.emb x)) (y : s.Idx)
      (_ : ∃ p ∈ L₁, y ∈ p.1.set), View.canon (L₁ ++ L₂) y = G y
  | [], _, _, _, hc => by obtain ⟨p, hp, _⟩ := hc; simp at hp
  | p :: L₁, L₂, hL, y, hc => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_append_of_cover G L₁ L₂ (fun q hq => hL q (by simp [hq])) y ?_
      obtain ⟨q, hq, hyq⟩ := hc
      rcases List.mem_cons.mp hq with rfl | hq'
      · exact absurd hyq hm
      · exact ⟨q, hq', hyq⟩

/-- The same with the list given whole: all stores but the oldest write blocks of `G`, and one of them covers `y`. -/
theorem canon_apply_dropLast [∀ e, Nonempty (Val e)] (G : s.Idx → Val e) (L : List (View.Piece Val s e))
    (hp : ∀ p ∈ L.dropLast, ∀ x : p.1.shape.Idx, p.2 x = G (p.1.emb x)) (y : s.Idx)
    (hc : ∃ p ∈ L.dropLast, y ∈ p.1.set) : View.canon L y = G y := by
  rcases List.eq_nil_or_concat L with rfl | ⟨L', a, rfl⟩
  · obtain ⟨p, hp', _⟩ := hc; simp at hp'
  · rw [List.concat_eq_append] at hp hc ⊢
    rw [List.dropLast_concat] at hp hc
    exact canon_append_of_cover G L' [a] hp y hc

end Cert.RunNorm

end

open Lean Elab Tactic Meta in
/-- One round of opening, in the goal, every value the body's run named (a constant with `sl` before its last
    name component), so that a rewriting step can run between two rounds. -/
elab "open_run_names_once" : tactic => do
  let g ← getMainGoal
  let isRunName (n : Name) : Bool := n.components.dropLast.any (· == `sl)
  let t ← instantiateMVars (← g.getType)
  let t' ← Meta.deltaExpand t isRunName
  if t' == t then throwError "open_run_names_once: nothing to open"
  let t'' ← Core.betaReduce t'
  replaceMainGoal [← g.replaceTargetDefEq t'']

open Lean Elab Tactic Meta in
/-- Open, in the goal, every payload definition of the body's skeleton (a constant whose last name component
    starts with `k0_pay`), a few rounds, and beta-reduce. -/
elab "open_payloads" : tactic => do
  let g ← getMainGoal
  let isPay (n : Name) : Bool := match n with
    | .str _ last => last.startsWith "k0_pay"
    | _ => false
  let mut t ← instantiateMVars (← g.getType)
  for _ in [0:8] do
    let t' ← Meta.deltaExpand t isPay
    if t' == t then break
    t := t'
  let t'' ← Core.betaReduce t
  replaceMainGoal [← g.replaceTargetDefEq t'']

/-- Split a statement about every piece of a literal list into one goal per piece. -/
macro "each_piece" : tactic => `(tactic| repeat' (first | (intro _ hmem; exact absurd hmem List.not_mem_nil) | refine List.forall_mem_cons.2 ⟨?_, ?_⟩))
-- ==== Proof.TilesGather.lean ====
/-
  One tile of the kernel body, read entry by entry on the extended reals.

  The body walks the 10240 padded rows in 40 tiles of 256. For the gather it compares the block's 1024 source
  words with the tile's 256 row numbers, and multiplies the resulting 0/1 matrix with the tile's rows of the padded
  features: the product adds, for edge e, the tile's row its source names (or nothing). For the scatter it compares
  the tile's row numbers with the block's 1024 destination words and multiplies with the gathered rows: row r of
  the tile gains the gathered rows of the edges into it, and the row sum of the 0/1 matrix counts those edges.
-/
import proofs.«402920_j87531433492751_4_alg».proof.Proof.Gen.KernelIdeal
import proofs.«402920_j87531433492751_4_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Mathlib.Algebra.BigOperators.Fin
import Mathlib.Algebra.BigOperators.Intervals

noncomputable section

namespace Cert.KernelIdeal.Tiles

open Idealize.ShloMosaic Idealize.ShloMosaic.ValueIdx Cert.KernelIdeal Cert.Gcn
open Cert.KernelIdeal.Facts₀ Cert.KernelIdeal.Facts
open scoped BigOperators

/-! ## The 0/1 weight -/

/-- The comparison bit of two words, widened and read as a signed integer, is one when the words are equal and zero
    otherwise. -/
theorem weight_eq (w v : BitVec 32) :
    ((((IntOp.cmpi .eq w v).setWidth 32).toInt : ℝ) : EReal) = if w = v then 1 else 0 := by
  have hi : ((IntOp.cmpi .eq w v).setWidth 32).toInt = if w = v then 1 else 0 := by
    rw [BitVec.toInt_eq_toNat_cond, StableHlo.Predicate.toNat_setWidth_bit]
    by_cases h : w = v
    · rw [if_pos (StableHlo.Predicate.cmpi_eq_iff.mpr h), if_pos h]
      rfl
    · rw [if_neg (fun h' => h (StableHlo.Predicate.cmpi_eq_iff.mp h')), if_neg h]
      rfl
  rw [hi]
  by_cases h : w = v
  · rw [if_pos h, if_pos h, Int.cast_one, EReal.coe_one]
  · rw [if_neg h, if_neg h, Int.cast_zero, EReal.coe_zero]

/-- Entry (e, k) of the gather's 0/1 matrix: the weight of edge e's source word against row lo + k. -/
theorem weight_apply (lo : ℕ) (x0 : IVec S1024x1 32) (e : Fin 1024) (k : Fin 256) :
    (truncf .bf16
      (sitofp .f32
        (extui 32
          (cmpi .eq (broadcastTo S1024x256 x0 broadcasts_S1024x1_S1024x256)
            (addi (broadcast S1024x256 (BitVec.ofNat 32 lo)) (iota .tc S1024x256 32 [1] iota_S1024x256_d1_w32)))
          natLt_1_32))
      bitsLt_bf16_f32 : FVec Ideal S1024x256 .bf16) (ix2 e k) = hit (x0 (ix2 e 0)) (lo + k.val) := by
  have hb : broadcastTo S1024x256 x0 broadcasts_S1024x1_S1024x256 (ix2 e k) = x0 (ix2 e 0) :=
    broadcastTo_apply x0 _ (ix2 e k) (ix2 e 0) (fun a => by
      match a with
      | ⟨0, _⟩ => rfl
      | ⟨1, _⟩ => rfl)
  have hi : iota .tc S1024x256 32 [1] iota_S1024x256_d1_w32 (ix2 e k) = BitVec.ofNat 32 k.val :=
    iota_single_apply .tc S1024x256 32 1 _ (ix2 e k)
  show ((((IntOp.cmpi .eq (broadcastTo S1024x256 x0 broadcasts_S1024x1_S1024x256 (ix2 e k))
      (BitVec.ofNat 32 lo + iota .tc S1024x256 32 [1] iota_S1024x256_d1_w32 (ix2 e k))).setWidth 32).toInt : ℝ) : EReal) = _
  rw [hb, hi, weight_eq, ← BitVec.ofNat_add]
  rfl

/-! ## The tile's rows -/

/-- Entry (k, d) of the tile's rows of the padded features is row lo + k. -/
theorem rows_apply (lo : ℕ) (inb : ∀ a, (![lo, 0] : Fin 2 → ℕ) a + (![256, 128] : Fin 2 → ℕ) a ≤ S10240x128.size a)
    (x2 : Vec Ideal S10240x128 .f32) (k : Fin 256) (d : Fin 128) :
    (truncf .bf16 (View.ld x2 (Rect.unit (s := S10240x128) ![lo, 0] ![256, 128] inb)) bitsLt_bf16_f32
      : FVec Ideal S256x128 .bf16) (ix2 k d) = rowN x2 (lo + k.val) d := by
  have h0 : lo + 256 ≤ 10240 := inb 0
  have hlt : lo + k.val < 10240 := by have := k.isLt; omega
  unfold rowN
  rw [dif_pos hlt]
  show x2 ((Rect.unit (s := S10240x128) ![lo, 0] ![256, 128] inb).idx (ix2 k d)) = x2 (ix2 ⟨lo + k.val, hlt⟩ d)
  refine congrArg x2 (funext fun a => Fin.ext ?_)
  match a with
  | ⟨0, _⟩ => show lo + 1 * k.val = lo + k.val; omega
  | ⟨1, _⟩ => show 0 + 1 * d.val = d.val; omega

/-! ## The product at an entry -/

theorem lhs_gather_0 (j : S1024x128.Idx) (q : dot_S1024x256_S256x128_S1024x128_1_0_0_1_n_n.contr.Idx) :
    (dot_S1024x256_S256x128_S1024x128_1_0_0_1_n_n.lhsIdx j q 0).val = (j 0).val := rfl
theorem lhs_gather_1 (j : S1024x128.Idx) (q : dot_S1024x256_S256x128_S1024x128_1_0_0_1_n_n.contr.Idx) :
    (dot_S1024x256_S256x128_S1024x128_1_0_0_1_n_n.lhsIdx j q 1).val = (q ⟨0, Nat.one_pos⟩).val :=
  dot_S1024x256_S256x128_S1024x128_1_0_0_1_n_n.lhsIdx_val_of_single rfl j q
theorem rhs_gather_0 (j : S1024x128.Idx) (q : dot_S1024x256_S256x128_S1024x128_1_0_0_1_n_n.contr.Idx) :
    (dot_S1024x256_S256x128_S1024x128_1_0_0_1_n_n.rhsIdx j q 0).val = (q ⟨0, Nat.one_pos⟩).val :=
  dot_S1024x256_S256x128_S1024x128_1_0_0_1_n_n.rhsIdx_val_of_single rfl j q
theorem rhs_gather_1 (j : S1024x128.Idx) (q : dot_S1024x256_S256x128_S1024x128_1_0_0_1_n_n.contr.Idx) :
    (dot_S1024x256_S256x128_S1024x128_1_0_0_1_n_n.rhsIdx j q 1).val = (j 1).val := rfl

/-- Entry (e, d) of the [1024, 256] × [256, 128] product into a zero accumulator: the sum over the 256 contracted
    positions of row e of the left factor times column d of the right. -/
theorem gather_matmul_apply {φ₁ φ₂ : FTy} (A : FVec Ideal S1024x256 φ₁) (B : FVec Ideal S256x128 φ₂) (e : Fin 1024) (d : Fin 128) :
    (matmul dot_S1024x256_S256x128_S1024x128_1_0_0_1_n_n none A B (constant S1024x128 .f32 0#32) : FVec Ideal S1024x128 .f32) (ix2 e d)
      = ∑ k : Fin 256, A (ix2 e k) * B (ix2 k d) := by
  show FloatOps.matmul dot_S1024x256_S256x128_S1024x128_1_0_0_1_n_n none A B (constant S1024x128 .f32 0x00000000#32) (ix2 e d) = _
  rw [Ideal.matmul_constant_zero_apply,
    ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 e d)
      ((contrEquiv1 dot_S1024x256_S256x128_S1024x128_1_0_0_1_n_n 256 rfl rfl).symm k) = ix2 e k :=
    funext fun a => Fin.ext (by
      match a with
      | ⟨0, _⟩ => exact lhs_gather_0 _ _
      | ⟨1, _⟩ => exact (lhs_gather_1 _ _).trans hk)
  have er : dot_S1024x256_S256x128_S1024x128_1_0_0_1_n_n.rhsIdx (ix2 e d)
      ((contrEquiv1 dot_S1024x256_S256x128_S1024x128_1_0_0_1_n_n 256 rfl rfl).symm k) = ix2 k d :=
    funext fun a => Fin.ext (by
      match a with
      | ⟨0, _⟩ => exact (rhs_gather_0 _ _).trans hk
      | ⟨1, _⟩ => exact rhs_gather_1 _ _)
  rw [el, er]

/-- THE GATHER'S START: the zero fill is the empty partial sum. -/
theorem gather_zero (x0 : IVec S1024x1 32) (x2 : Vec Ideal S10240x128 .f32) (e : Fin 1024) (d : Fin 128) :
    (broadcast S1024x128 (FloatOps.ofBits (F := Ideal) .f32 0#32) : FVec Ideal S1024x128 .f32) (ix2 e d)
      = ∑ n ∈ Finset.range 0, hit (x0 (ix2 e 0)) n * rowN x2 n d := by
  rw [Finset.range_zero, Finset.sum_empty]
  exact Ideal.ofBits_zero_f32

/-- ONE GATHER TILE: an accumulator holding the partial sums over the rows below `lo` holds, after the tile at rows
    `lo … lo + 255`, the partial sums over the rows below `lo + 256`. -/
theorem gather_step (lo : ℕ) (inb : ∀ a, (![lo, 0] : Fin 2 → ℕ) a + (![256, 128] : Fin 2 → ℕ) a ≤ S10240x128.size a)
    (x0 : IVec S1024x1 32) (x2 : Vec Ideal S10240x128 .f32) (acc : FVec Ideal S1024x128 .f32)
    (hacc : ∀ (e : Fin 1024) (d : Fin 128), acc (ix2 e d) = ∑ n ∈ Finset.range lo, hit (x0 (ix2 e 0)) n * rowN x2 n d)
    (e : Fin 1024) (d : Fin 128) :
    (addf acc
      (matmul dot_S1024x256_S256x128_S1024x128_1_0_0_1_n_n none
        (truncf .bf16
          (sitofp .f32
            (extui 32
              (cmpi .eq (broadcastTo S1024x256 x0 broadcasts_S1024x1_S1024x256)
                (addi (broadcast S1024x256 (BitVec.ofNat 32 lo)) (iota .tc S1024x256 32 [1] iota_S1024x256_d1_w32)))
              natLt_1_32))
          bitsLt_bf16_f32)
        (truncf .bf16 (View.ld x2 (Rect.unit (s := S10240x128) ![lo, 0] ![256, 128] inb)) bitsLt_bf16_f32)
        (constant S1024x128 .f32 0#32)) : FVec Ideal S1024x128 .f32) (ix2 e d)
      = ∑ n ∈ Finset.range (lo + 256), hit (x0 (ix2 e 0)) n * rowN x2 n d := by
  rw [addf_apply, hacc e d, Finset.sum_range_add,
    ← Fin.sum_univ_eq_sum_range (fun k => hit (x0 (ix2 e 0)) (lo + k) * rowN x2 (lo + k) d) 256]
  refine congrArg (_ + ·) ?_
  refine (gather_matmul_apply _ _ e d).trans ?_
  refine Finset.sum_congr rfl fun k _ => ?_
  rw [weight_apply, rows_apply]

end Cert.KernelIdeal.Tiles

end
-- ==== Proof.TilesScatter.lean ====
/-
  One tile of the kernel body, read entry by entry on the extended reals.

  The body walks the 10240 padded rows in 40 tiles of 256. For the gather it compares the block's 1024 source
  words with the tile's 256 row numbers, and multiplies the resulting 0/1 matrix with the tile's rows of the padded
  features: the product adds, for edge e, the tile's row its source names (or nothing). For the scatter it compares
  the tile's row numbers with the block's 1024 destination words and multiplies with the gathered rows: row r of
  the tile gains the gathered rows of the edges into it, and the row sum of the 0/1 matrix counts those edges.
-/
import proofs.«402920_j87531433492751_4_alg».proof.Proof.Gen.KernelIdeal
import proofs.«402920_j87531433492751_4_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Tiles

open Idealize.ShloMosaic Idealize.ShloMosaic.ValueIdx Cert.KernelIdeal Cert.Gcn
open Cert.KernelIdeal.Facts₀ Cert.KernelIdeal.Facts
open scoped BigOperators

/-! ## The scatter product at an entry -/

theorem lhs_scatter_0 (j : S256x128.Idx) (q : dot_S256x1024_S1024x128_S256x128_1_0_0_1_n_n.contr.Idx) :
    (dot_S256x1024_S1024x128_S256x128_1_0_0_1_n_n.lhsIdx j q 0).val = (j 0).val := rfl
theorem lhs_scatter_1 (j : S256x128.Idx) (q : dot_S256x1024_S1024x128_S256x128_1_0_0_1_n_n.contr.Idx) :
    (dot_S256x1024_S1024x128_S256x128_1_0_0_1_n_n.lhsIdx j q 1).val = (q ⟨0, Nat.one_pos⟩).val :=
  dot_S256x1024_S1024x128_S256x128_1_0_0_1_n_n.lhsIdx_val_of_single rfl j q
theorem rhs_scatter_0 (j : S256x128.Idx) (q : dot_S256x1024_S1024x128_S256x128_1_0_0_1_n_n.contr.Idx) :
    (dot_S256x1024_S1024x128_S256x128_1_0_0_1_n_n.rhsIdx j q 0).val = (q ⟨0, Nat.one_pos⟩).val :=
  dot_S256x1024_S1024x128_S256x128_1_0_0_1_n_n.rhsIdx_val_of_single rfl j q
theorem rhs_scatter_1 (j : S256x128.Idx) (q : dot_S256x1024_S1024x128_S256x128_1_0_0_1_n_n.contr.Idx) :
    (dot_S256x1024_S1024x128_S256x128_1_0_0_1_n_n.rhsIdx j q 1).val = (j 1).val := rfl

/-- Entry (r, c) of the product into a zero accumulator: the sum over the 1024 edges of the row of the left factor
    times the column of the right one. -/
theorem scatter_dot_apply {φ₁ φ₂ : FTy} (A : FVec Ideal S256x1024 φ₁) (W : FVec Ideal S1024x128 φ₂) (r : Fin 256) (c : Fin 128) :
    (matmul dot_S256x1024_S1024x128_S256x128_1_0_0_1_n_n none A W (constant S256x128 .f32 0#32) : FVec Ideal S256x128 .f32) (ix2 r c)
      = ∑ k : Fin 1024, A (ix2 r k) * W (ix2 k c) := by
  refine (Ideal.matmul_constant_zero_apply _ none A W (ix2 r c)).trans ?_
  rw [← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 r c)
      ((contrEquiv1 dot_S256x1024_S1024x128_S256x128_1_0_0_1_n_n 1024 rfl rfl).symm k) = ix2 r k :=
    funext fun a => Fin.ext (by
      match a with
      | ⟨0, _⟩ => exact lhs_scatter_0 _ _
      | ⟨1, _⟩ => exact (lhs_scatter_1 _ _).trans hk)
  have er : dot_S256x1024_S1024x128_S256x128_1_0_0_1_n_n.rhsIdx (ix2 r c)
      ((contrEquiv1 dot_S256x1024_S1024x128_S256x128_1_0_0_1_n_n 1024 rfl rfl).symm k) = ix2 k c :=
    funext fun a => Fin.ext (by
      match a with
      | ⟨0, _⟩ => exact (rhs_scatter_0 _ _).trans hk
      | ⟨1, _⟩ => exact rhs_scatter_1 _ _)
  rw [el, er]

/-! ## The 0/1 weight -/

/-- A comparison bit widened to a word and read as a number is the 0/1 weight of the compared words. -/
theorem dst_bit_weight (w v : BitVec 32) (n : ℕ) (hv : v = BitVec.ofNat 32 n) :
    (FloatOps.sitofp (F := Ideal) .f32 ((IntOp.cmpi .eq w v).setWidth 32) : EReal) = hit w n := by
  subst hv
  show ((((IntOp.cmpi .eq w (BitVec.ofNat 32 n)).setWidth 32).toInt : ℝ) : EReal) = hit w n
  unfold hit
  by_cases h : w = BitVec.ofNat 32 n
  · rw [if_pos h, StableHlo.Predicate.cmpi_eq_iff.mpr h]
    norm_num
  · have h0 : IntOp.cmpi .eq w (BitVec.ofNat 32 n) = 0#1 := by
      rcases BitVec.eq_zero_or_eq_one (IntOp.cmpi .eq w (BitVec.ofNat 32 n)) with h0 | h1
      · exact h0
      · exact absurd (StableHlo.Predicate.cmpi_eq_iff.mp h1) h
    rw [if_neg h, h0]
    norm_num

/-- Entry (r, e) of the tile's 0/1 matrix: the weight of edge e's destination word against row `lo + r`. -/
theorem dst_weight_apply (lo : ℕ) (x1 : IVec S1x1024 32) (r : Fin 256) (e : Fin 1024) :
    (truncf .bf16
        (sitofp .f32
          (extui 32
            (cmpi .eq (broadcastTo S256x1024 x1 broadcasts_S1x1024_S256x1024)
              (addi (broadcast S256x1024 (BitVec.ofNat 32 lo)) (iota .tc S256x1024 32 [0] iota_S256x1024_d0_w32)))
            natLt_1_32))
        bitsLt_bf16_f32 : FVec Ideal S256x1024 .bf16) (ix2 r e)
      = hit (x1 (ix2 0 e)) (lo + r.val) := by
  have hb : broadcastTo S256x1024 x1 broadcasts_S1x1024_S256x1024 (ix2 r e) = x1 (ix2 0 e) :=
    broadcastTo_apply x1 broadcasts_S1x1024_S256x1024 (ix2 r e) (ix2 0 e) (fun a => by
      match a with
      | ⟨0, _⟩ => rfl
      | ⟨1, _⟩ => rfl)
  have hi : iota .tc S256x1024 32 [0] iota_S256x1024_d0_w32 (ix2 r e) = BitVec.ofNat 32 r.val :=
    iota_single_apply .tc S256x1024 32 0 iota_S256x1024_d0_w32 (ix2 r e)
  show FloatOps.sitofp (F := Ideal) .f32
      ((IntOp.cmpi .eq (broadcastTo S256x1024 x1 broadcasts_S1x1024_S256x1024 (ix2 r e))
        (IntOp.addi (BitVec.ofNat 32 lo) (iota .tc S256x1024 32 [0] iota_S256x1024_d0_w32 (ix2 r e)))).setWidth 32) = _
  rw [hb, hi]
  exact dst_bit_weight _ _ _ (BitVec.ofNat_add _ _).symm

/-! ## The row counts -/

/-- An `[a]` array cast to `[a, 1]` reads, at `(i, u)`, the operand at `i`, whatever the unit coordinate `u`. -/
theorem scatter_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a [256, 1024] matrix at row r: the sum of that row's 1024 entries. -/
theorem scatter_rowsum_apply (M : FVec Ideal S256x1024 .f32) (hφ : FKind.Formats .f32)
    (hacc : (0#32 : BitVec (FTy.bits .f32)) = FKind.add.neutral .f32 hφ) (r : Fin 256) :
    (multiReduction (F := Ideal) .add [1] S256 M (0#32) reduces_S256x1024_S256 hφ hacc) (ix1 r)
      = ∑ e : Fin 1024, M (ix2 r e) := by
  refine (Ideal.multiReduction_add_single M _ reduces_S256x1024_S256 hφ hacc (ix1 r)).trans ?_
  refine Finset.sum_congr rfl fun e _ => ?_
  refine congrArg M (funext fun a => Fin.ext ?_)
  match a with
  | ⟨0, _⟩ => rfl
  | ⟨1, _⟩ => rfl

/-! ## The two tiles -/

/-- ONE SCATTER TILE OF THE SUMS: row r of the tile at rows `lo … lo + 255` gains the gathered rows of the
    block's edges whose destination word is `lo + r`. Stated against any function `Gf` of the buffer's index that
    is the old contents plus that gain. -/
theorem out_tile (lo : ℕ) (inb : ∀ a, (![lo, 0] : Fin 2 → ℕ) a + (![256, 128] : Fin 2 → ℕ) a ≤ S10240x128.size a)
    (x1 : IVec S1x1024 32) (xo5 : Vec Ideal S10240x128 .f32) (G16 : FVec Ideal S1024x128 .bf16)
    (x : (Rect.unit (s := S10240x128) ![lo, 0] ![256, 128] inb).shape.Idx) :
    (addf (View.ld xo5 (Rect.unit (s := S10240x128) ![lo, 0] ![256, 128] inb))
      (matmul dot_S256x1024_S1024x128_S256x128_1_0_0_1_n_n none
        (truncf .bf16
          (sitofp .f32
            (extui 32
              (cmpi .eq (broadcastTo S256x1024 x1 broadcasts_S1x1024_S256x1024)
                (addi (broadcast S256x1024 (BitVec.ofNat 32 lo)) (iota .tc S256x1024 32 [0] iota_S256x1024_d0_w32)))
              natLt_1_32))
          bitsLt_bf16_f32)
        G16 (constant S256x128 .f32 0#32)) : FVec Ideal S256x128 .f32) x
      = (fun y : S10240x128.Idx => xo5 y + ∑ e : Fin 1024, hit (x1 (ix2 0 e)) (y 0).val * G16 (ix2 e ⟨(y 1).val, (y 1).isLt⟩))
          ((Rect.unit (s := S10240x128) ![lo, 0] ![256, 128] inb).emb x) := by
  obtain ⟨r, d, rfl⟩ : ∃ (r : Fin 256) (d : Fin 128), x = ix2 r d := ⟨x 0, x 1, eq_ix2 x⟩
  -- both sides read the old contents at (lo + r, d); what remains is the gain
  refine congrArg₂ (· + ·) rfl ?_
  refine (scatter_dot_apply _ G16 r d).trans ?_
  refine Finset.sum_congr rfl fun e _ => ?_
  rw [dst_weight_apply]
  have h0 : (((Rect.unit (s := S10240x128) ![lo, 0] ![256, 128] inb).emb (ix2 r d)) 0).val = lo + r.val := by
    show lo + 1 * r.val = lo + r.val
    omega
  have h1 : (⟨(((Rect.unit (s := S10240x128) ![lo, 0] ![256, 128] inb).emb (ix2 r d)) 1).val,
      (((Rect.unit (s := S10240x128) ![lo, 0] ![256, 128] inb).emb (ix2 r d)) 1).isLt⟩ : Fin 128) = d :=
    Fin.ext (by
      show 0 + 1 * d.val = d.val
      omega)
  show _ = hit (x1 (ix2 0 e)) (((Rect.unit (s := S10240x128) ![lo, 0] ![256, 128] inb).emb (ix2 r d)) 0).val
      * G16 (ix2 e ⟨(((Rect.unit (s := S10240x128) ![lo, 0] ![256, 128] inb).emb (ix2 r d)) 1).val, _⟩)
  rw [h0, h1]

/-- ONE SCATTER TILE OF THE COUNTS: row r of the tile gains the number of the block's edges whose destination
    word is `lo + r`. -/
theorem deg_tile (lo : ℕ) (inb : ∀ a, (![lo, 0] : Fin 2 → ℕ) a + (![256, 1] : Fin 2 → ℕ) a ≤ S10240x1.size a)
    (x1 : IVec S1x1024 32) (xs1 : Vec Ideal S10240x1 .f32)
    (hφ : FKind.Formats .f32) (hacc : (0#32 : BitVec (FTy.bits .f32)) = FKind.add.neutral .f32 hφ)
    (x : (Rect.unit (s := S10240x1) ![lo, 0] ![256, 1] inb).shape.Idx) :
    (addf (View.ld xs1 (Rect.unit (s := S10240x1) ![lo, 0] ![256, 1] inb))
      (shapeCast S256x1
        (multiReduction .add [1] S256
          (extf .f32
            (truncf .bf16
              (sitofp .f32
                (extui 32
                  (cmpi .eq (broadcastTo S256x1024 x1 broadcasts_S1x1024_S256x1024)
                    (addi (broadcast S256x1024 (BitVec.ofNat 32 lo)) (iota .tc S256x1024 32 [0] iota_S256x1024_d0_w32)))
                  natLt_1_32))
              bitsLt_bf16_f32)
            bitsLt_bf16_f32)
          (0#32) reduces_S256x1024_S256 hφ hacc)
        shapeCasts_S256_S256x1) : FVec Ideal S256x1 .f32) x
      = (fun y : S10240x1.Idx => xs1 y + ∑ e : Fin 1024, hit (x1 (ix2 0 e)) (y 0).val)
          ((Rect.unit (s := S10240x1) ![lo, 0] ![256, 1] inb).emb x) := by
  obtain ⟨r, c, rfl⟩ : ∃ (r : Fin 256) (c : Fin 1), x = ix2 r c := ⟨x 0, x 1, eq_ix2 x⟩
  -- both sides read the old contents at (lo + r, 0); what remains is the count
  refine congrArg₂ (· + ·) rfl ?_
  refine (scatter_shapeCast_a_a1_apply _ shapeCasts_S256_S256x1 r c).trans ?_
  refine (scatter_rowsum_apply _ hφ hacc r).trans ?_
  refine Finset.sum_congr rfl fun e _ => ?_
  -- widening the rounded 0/1 entry back changes nothing on the extended reals
  refine (dst_weight_apply lo x1 r e).trans ?_
  show hit (x1 (ix2 0 e)) (lo + r.val) = hit (x1 (ix2 0 e)) (lo + 1 * r.val)
  rw [Nat.one_mul]

end Cert.KernelIdeal.Tiles

end
-- ==== Proof.BodyA.lean ====
import proofs.«402920_j87531433492751_4_alg».proof.Proof.Gen.KernelIdeal.Frame
import proofs.«402920_j87531433492751_4_alg».proof.Proof.RunNorm
import proofs.«402920_j87531433492751_4_alg».proof.Proof.Spec
import proofs.«402920_j87531433492751_4_alg».proof.Proof.TilesGather
import proofs.«402920_j87531433492751_4_alg».proof.Proof.TilesScatter

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Gcn Cert.KernelIdeal.Tiles
open scoped BigOperators

set_option maxHeartbeats 8000000 in
/-- The first grid point: the output block, zeroed and then accumulated tile by tile, ends at the gathered rows of
    the block's edges, row by row. -/
theorem out0_A_5_apply (c : Dev nD) (i : grid0.Coords) (arg1 : Memref sig .tc .vmem S1024x1 .i32) (harg1 : arg1.IsWhole) (arg2 : Memref sig .tc .vmem S1x1024 .i32) (harg2 : arg2.IsWhole) (arg3 : Memref sig .tc .vmem S10240x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S10240x128 .f32) (harg6 : arg6.IsWhole) (arg7 : Memref sig .tc .vmem S1024x128 .f32) (harg7 : arg7.IsWhole) (arg8 : Memref sig .tc .vmem S10240x1 .f32) (harg8 : arg8.IsWhole) (arg9 : Memref sig .tc .vmem S1024x256 .bf16) (harg9 : arg9.IsWhole) (arg10 : Memref sig .tc .vmem S256x1024 .bf16) (harg10 : arg10.IsWhole) (hc0 : cond0_0 i) (hc1 : ¬cond0_1 i) (x0 : Vec Ideal S1024x1 .i32) (x1 : Vec Ideal S1x1024 .i32) (x2 : Vec Ideal S10240x128 .f32) (x3 : Vec Ideal S128x128 .f32) (x4 : Vec Ideal S128 .f32) (n : Fin 10240) (d : Fin 128) :
    out0_A_5 (F := Ideal) c i arg1 harg1 arg2 harg2 arg3 harg3 arg4 harg4 arg5 harg5 arg6 harg6 arg7 harg7 arg8 harg8 arg9 harg9 arg10 harg10 hc0 hc1 x0 x1 x2 x3 x4 (ix2 n d) = stepOut x0 x1 x2 (fun _ => 0) n d := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  have hc := View.cover_of_tiledL (kernelRun0_A (F := Ideal) c i arg1 harg1 arg2 harg2 arg3 harg3 arg4 harg4 arg5 harg5 arg6 harg6 arg7 harg7 arg8 harg8 arg9 harg9 arg10 harg10 hc0 hc1 x0 x1 x2 x3 x4).1.dropLast S256x128.size (by sl_kernel_rfl) (ix2 n d)
  revert hc
  unfold kernelRun0_A
  dsimp only
  open_run_names_once
  simp (disch := decide) only [↓View.readCov_cons_toLoadRect, ↓Cert.RunNorm.readCov_cons_of_disj, ↓Cert.RunNorm.readCov_cons_whole2]
  simp only [View.readAt_eq_ld, harg1.read_unread, harg2.read_unread, harg3.read_unread]
  generalize hG : k0_pay104 (F := Ideal) _ = G16
  have hGsem : ∀ (e : Fin 1024) (d : Fin 128), G16 (ix2 e d) = gath x0 x2 e d := by
    subst hG
    open_payloads
    dsimp only
    simp only [shapeCast_self, View.ld_unit_zero (S := S1024x1) Cert.RunNorm.off2_zero, truncf_apply]
    unfold gath
    repeat (first | exact gather_zero x0 x2 | refine gather_step _ _ x0 x2 _ ?_)
  clear hG
  open_payloads
  dsimp only
  simp only [shapeCast_self, View.ld_unit_zero (S := S1x1024) Cert.RunNorm.off2_zero]
  intro hc
  rw [Cert.RunNorm.canon_apply_dropLast (fun y : S10240x128.Idx => (broadcast S10240x128 (FloatOps.ofBits (F := Ideal) .f32 0#32) : FVec Ideal S10240x128 .f32) y + ∑ e : Fin 1024, hit (x1 (ix2 0 e)) (y 0).val * G16 (ix2 e ⟨(y 1).val, (y 1).isLt⟩)) _ ?_ (ix2 n d) hc]
  · unfold stepOut
    simp only [hGsem, broadcast_apply, Ideal.ofBits_def, Ideal.ofBits_zero_f32]
  · dsimp only [List.dropLast]
    each_piece
    all_goals (intro x; exact out_tile _ _ x1 _ G16 x)

set_option maxHeartbeats 8000000 in
/-- The first grid point: the count column, zeroed and then accumulated tile by tile, ends at the number of the
    block's edges into each row. -/
theorem sout0_A_1_apply (c : Dev nD) (i : grid0.Coords) (arg1 : Memref sig .tc .vmem S1024x1 .i32) (harg1 : arg1.IsWhole) (arg2 : Memref sig .tc .vmem S1x1024 .i32) (harg2 : arg2.IsWhole) (arg3 : Memref sig .tc .vmem S10240x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S10240x128 .f32) (harg6 : arg6.IsWhole) (arg7 : Memref sig .tc .vmem S1024x128 .f32) (harg7 : arg7.IsWhole) (arg8 : Memref sig .tc .vmem S10240x1 .f32) (harg8 : arg8.IsWhole) (arg9 : Memref sig .tc .vmem S1024x256 .bf16) (harg9 : arg9.IsWhole) (arg10 : Memref sig .tc .vmem S256x1024 .bf16) (harg10 : arg10.IsWhole) (hc0 : cond0_0 i) (hc1 : ¬cond0_1 i) (x0 : Vec Ideal S1024x1 .i32) (x1 : Vec Ideal S1x1024 .i32) (x2 : Vec Ideal S10240x128 .f32) (x3 : Vec Ideal S128x128 .f32) (x4 : Vec Ideal S128 .f32) (n : Fin 10240) :
    sout0_A_1 (F := Ideal) c i arg1 harg1 arg2 harg2 arg3 harg3 arg4 harg4 arg5 harg5 arg6 harg6 arg7 harg7 arg8 harg8 arg9 harg9 arg10 harg10 hc0 hc1 x0 x1 x2 x3 x4 (ix2 n 0) = stepDeg x1 (fun _ => 0) n := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  have hc := View.cover_of_tiledL (kernelRun0_A (F := Ideal) c i arg1 harg1 arg2 harg2 arg3 harg3 arg4 harg4 arg5 harg5 arg6 harg6 arg7 harg7 arg8 harg8 arg9 harg9 arg10 harg10 hc0 hc1 x0 x1 x2 x3 x4).2.1.dropLast S256x1.size (by sl_kernel_rfl) (ix2 n 0)
  revert hc
  unfold kernelRun0_A
  dsimp only
  open_run_names_once
  simp (disch := decide) only [↓View.readCov_cons_toLoadRect, ↓Cert.RunNorm.readCov_cons_of_disj, ↓Cert.RunNorm.readCov_cons_whole2]
  simp only [View.readAt_eq_ld, harg2.read_unread]
  open_payloads
  dsimp only
  simp only [shapeCast_self, View.ld_unit_zero (S := S1x1024) Cert.RunNorm.off2_zero]
  intro hc
  rw [Cert.RunNorm.canon_apply_dropLast (fun y : S10240x1.Idx => (broadcast S10240x1 (FloatOps.ofBits (F := Ideal) .f32 0#32) : FVec Ideal S10240x1 .f32) y + ∑ e : Fin 1024, hit (x1 (ix2 0 e)) (y 0).val) _ ?_ (ix2 n 0) hc]
  · unfold stepDeg
    simp only [broadcast_apply, Ideal.ofBits_def, Ideal.ofBits_zero_f32]
  · dsimp only [List.dropLast]
    each_piece
    all_goals (intro x; exact deg_tile _ _ x1 _ _ _ x)

end Cert.KernelIdeal.Body

end
-- ==== Proof.BodyB.lean ====
import proofs.«402920_j87531433492751_4_alg».proof.Proof.Gen.KernelIdeal.Frame
import proofs.«402920_j87531433492751_4_alg».proof.Proof.RunNorm
import proofs.«402920_j87531433492751_4_alg».proof.Proof.Spec
import proofs.«402920_j87531433492751_4_alg».proof.Proof.TilesGather
import proofs.«402920_j87531433492751_4_alg».proof.Proof.TilesScatter

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Gcn Cert.KernelIdeal.Tiles
open scoped BigOperators

set_option maxHeartbeats 8000000 in
/-- A middle grid point: the output block after the body is the block before it plus, row by row, the gathered
    rows of the block's edges into that row. -/
theorem out0_B_5_apply (c : Dev nD) (i : grid0.Coords) (arg1 : Memref sig .tc .vmem S1024x1 .i32) (harg1 : arg1.IsWhole) (arg2 : Memref sig .tc .vmem S1x1024 .i32) (harg2 : arg2.IsWhole) (arg3 : Memref sig .tc .vmem S10240x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S10240x128 .f32) (harg6 : arg6.IsWhole) (arg7 : Memref sig .tc .vmem S1024x128 .f32) (harg7 : arg7.IsWhole) (arg8 : Memref sig .tc .vmem S10240x1 .f32) (harg8 : arg8.IsWhole) (arg9 : Memref sig .tc .vmem S1024x256 .bf16) (harg9 : arg9.IsWhole) (arg10 : Memref sig .tc .vmem S256x1024 .bf16) (harg10 : arg10.IsWhole) (hc0 : ¬cond0_0 i) (hc1 : ¬cond0_1 i) (x0 : Vec Ideal S1024x1 .i32) (x1 : Vec Ideal S1x1024 .i32) (x2 : Vec Ideal S10240x128 .f32) (x3 : Vec Ideal S128x128 .f32) (x4 : Vec Ideal S128 .f32) (xo5 : Vec Ideal S10240x128 .f32) (xs1 : Vec Ideal S10240x1 .f32) (n : Fin 10240) (d : Fin 128) :
    out0_B_5 (F := Ideal) c i arg1 harg1 arg2 harg2 arg3 harg3 arg4 harg4 arg5 harg5 arg6 harg6 arg7 harg7 arg8 harg8 arg9 harg9 arg10 harg10 hc0 hc1 x0 x1 x2 x3 x4 xo5 xs1 (ix2 n d) = stepOut x0 x1 x2 xo5 n d := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xo5 xs1)]
  have hc := cover0_B_5 c i arg1 harg1 arg2 harg2 arg3 harg3 arg4 harg4 arg5 harg5 arg6 harg6 arg7 harg7 arg8 harg8 arg9 harg9 arg10 harg10 hc0 hc1 x0 x1 x2 x3 x4 xo5 xs1 (ix2 n d)
  revert hc
  unfold kernelRun0_B
  dsimp only
  open_run_names_once
  simp (disch := decide) only [↓View.readCov_cons_toLoadRect, ↓Cert.RunNorm.readCov_cons_of_disj, ↓Cert.RunNorm.readCov_cons_whole2]
  simp only [View.readAt_eq_ld, harg1.read_unread, harg2.read_unread, harg3.read_unread, harg6.read_unread]
  generalize hG : k0_pay104 (F := Ideal) _ = G16
  have hGsem : ∀ (e : Fin 1024) (d : Fin 128), G16 (ix2 e d) = gath x0 x2 e d := by
    subst hG
    open_payloads
    dsimp only
    simp only [shapeCast_self, View.ld_unit_zero (S := S1024x1) Cert.RunNorm.off2_zero, truncf_apply]
    unfold gath
    repeat (first | exact gather_zero x0 x2 | refine gather_step _ _ x0 x2 _ ?_)
  clear hG
  open_payloads
  dsimp only
  simp only [shapeCast_self, View.ld_unit_zero (S := S1x1024) Cert.RunNorm.off2_zero]
  intro hc
  rw [View.canon_apply_of_pieces (fun y : S10240x128.Idx => xo5 y + ∑ e : Fin 1024, hit (x1 (ix2 0 e)) (y 0).val * G16 (ix2 e ⟨(y 1).val, (y 1).isLt⟩)) _ ?_ (ix2 n d) hc]
  · unfold stepOut
    simp only [hGsem]
  · each_piece
    all_goals (intro x; exact out_tile _ _ x1 xo5 G16 x)

set_option maxHeartbeats 8000000 in
/-- A middle grid point: the count column after the body is the column before it plus, row by row, the number of
    the block's edges into that row. -/
theorem sout0_B_1_apply (c : Dev nD) (i : grid0.Coords) (arg1 : Memref sig .tc .vmem S1024x1 .i32) (harg1 : arg1.IsWhole) (arg2 : Memref sig .tc .vmem S1x1024 .i32) (harg2 : arg2.IsWhole) (arg3 : Memref sig .tc .vmem S10240x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S10240x128 .f32) (harg6 : arg6.IsWhole) (arg7 : Memref sig .tc .vmem S1024x128 .f32) (harg7 : arg7.IsWhole) (arg8 : Memref sig .tc .vmem S10240x1 .f32) (harg8 : arg8.IsWhole) (arg9 : Memref sig .tc .vmem S1024x256 .bf16) (harg9 : arg9.IsWhole) (arg10 : Memref sig .tc .vmem S256x1024 .bf16) (harg10 : arg10.IsWhole) (hc0 : ¬cond0_0 i) (hc1 : ¬cond0_1 i) (x0 : Vec Ideal S1024x1 .i32) (x1 : Vec Ideal S1x1024 .i32) (x2 : Vec Ideal S10240x128 .f32) (x3 : Vec Ideal S128x128 .f32) (x4 : Vec Ideal S128 .f32) (xo5 : Vec Ideal S10240x128 .f32) (xs1 : Vec Ideal S10240x1 .f32) (n : Fin 10240) :
    sout0_B_1 (F := Ideal) c i arg1 harg1 arg2 harg2 arg3 harg3 arg4 harg4 arg5 harg5 arg6 harg6 arg7 harg7 arg8 harg8 arg9 harg9 arg10 harg10 hc0 hc1 x0 x1 x2 x3 x4 xo5 xs1 (ix2 n 0) = stepDeg x1 xs1 n := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xo5 xs1)]
  have hc := scover0_B_1 c i arg1 harg1 arg2 harg2 arg3 harg3 arg4 harg4 arg5 harg5 arg6 harg6 arg7 harg7 arg8 harg8 arg9 harg9 arg10 harg10 hc0 hc1 x0 x1 x2 x3 x4 xo5 xs1 (ix2 n 0)
  revert hc
  unfold kernelRun0_B
  dsimp only
  open_run_names_once
  simp (disch := decide) only [↓View.readCov_cons_toLoadRect, ↓Cert.RunNorm.readCov_cons_of_disj, ↓Cert.RunNorm.readCov_cons_whole2]
  simp only [View.readAt_eq_ld, harg2.read_unread, harg8.read_unread]
  open_payloads
  dsimp only
  simp only [shapeCast_self, View.ld_unit_zero (S := S1x1024) Cert.RunNorm.off2_zero]
  intro hc
  rw [View.canon_apply_of_pieces (fun y : S10240x1.Idx => xs1 y + ∑ e : Fin 1024, hit (x1 (ix2 0 e)) (y 0).val) _ ?_ (ix2 n 0) hc]
  · rfl
  · each_piece
    all_goals (intro x; exact deg_tile _ _ x1 xs1 _ _ x)

end Cert.KernelIdeal.Body

end
-- ==== Proof.TilesEpi.lean ====
/-
  The kernel's last step read at an entry: out = max ((sums / max (count) 1 + x) · Wᵀ + b) 0.
-/
import proofs.«402920_j87531433492751_4_alg».proof.Proof.Gen.KernelIdeal
import proofs.«402920_j87531433492751_4_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Tiles

open Idealize.ShloMosaic Idealize.ShloMosaic.ValueIdx Cert.KernelIdeal Cert.Gcn
open Cert.KernelIdeal.Facts₀ Cert.KernelIdeal.Facts
open scoped BigOperators

/-! ## The layout operations of the last step, read at an entry -/

/-- The clamped count, spread along the features: entry (n, k) is the larger of row n's count and the word for one. -/
theorem clampD_apply (D : FVec Ideal S10240x1 .f32) (n : Fin 10240) (k : Fin 128) :
    broadcastTo S10240x128 (maximumf D (broadcast S10240x1 (FloatOps.ofBits (F := Ideal) .f32 1065353216#32)))
      broadcasts_S10240x1_S10240x128 (ix2 n k) = max (D (ix2 n 0)) one32 :=
  broadcastTo_apply _ _ (ix2 n k) (ix2 n 0) (fun a => by
    match a with
    | ⟨0, _⟩ => rfl
    | ⟨1, _⟩ => rfl)

/-- The transposed weights at (k, o) are the weights at (o, k). -/
theorem wT_apply (X3 : FVec Ideal S128x128 .f32) (k o : Fin 128) :
    transpose S128x128 [1, 0] X3 transposes_S128x128_p1_0_S128x128 (ix2 k o) = X3 (ix2 o k) :=
  transpose_apply [1, 0] X3 _ (ix2 k o) (ix2 o k) (fun b => by
    match b with
    | ⟨0, _⟩ => rfl
    | ⟨1, _⟩ => rfl)

/-- The bias as a row, spread down the rows: entry (n, o) is the bias at o. -/
theorem bias_apply (X4 : FVec Ideal S128 .f32) (n : Fin 10240) (o : Fin 128) :
    broadcastTo S10240x128 (shapeCast S1x128 X4 shapeCasts_S128_S1x128) broadcasts_S1x128_S10240x128 (ix2 n o) = X4 (ix1 o) := by
  have hb : broadcastTo S10240x128 (shapeCast S1x128 X4 shapeCasts_S128_S1x128) broadcasts_S1x128_S10240x128 (ix2 n o)
      = shapeCast S1x128 X4 shapeCasts_S128_S1x128 (ix2 0 o) :=
    broadcastTo_apply _ _ (ix2 n o) (ix2 0 o) (fun a => by
      match a with
      | ⟨0, _⟩ => rfl
      | ⟨1, _⟩ => rfl)
  rw [hb]
  refine (shapeCast_addUnit_apply ![128] X4 shapeCasts_S128_S1x128 (ix2 0 o)).trans (congrArg X4 (funext fun a => ?_))
  match a with
  | ⟨0, _⟩ => rfl

/-! ## The product at an entry -/

theorem lhs_epi_0 (j : S10240x128.Idx) (q : dot_S10240x128_S128x128_S10240x128_1_0_0_1_n_n.contr.Idx) :
    (dot_S10240x128_S128x128_S10240x128_1_0_0_1_n_n.lhsIdx j q 0).val = (j 0).val := rfl
theorem lhs_epi_1 (j : S10240x128.Idx) (q : dot_S10240x128_S128x128_S10240x128_1_0_0_1_n_n.contr.Idx) :
    (dot_S10240x128_S128x128_S10240x128_1_0_0_1_n_n.lhsIdx j q 1).val = (q ⟨0, Nat.one_pos⟩).val :=
  dot_S10240x128_S128x128_S10240x128_1_0_0_1_n_n.lhsIdx_val_of_single rfl j q
theorem rhs_epi_0 (j : S10240x128.Idx) (q : dot_S10240x128_S128x128_S10240x128_1_0_0_1_n_n.contr.Idx) :
    (dot_S10240x128_S128x128_S10240x128_1_0_0_1_n_n.rhsIdx j q 0).val = (q ⟨0, Nat.one_pos⟩).val :=
  dot_S10240x128_S128x128_S10240x128_1_0_0_1_n_n.rhsIdx_val_of_single rfl j q
theorem rhs_epi_1 (j : S10240x128.Idx) (q : dot_S10240x128_S128x128_S10240x128_1_0_0_1_n_n.contr.Idx) :
    (dot_S10240x128_S128x128_S10240x128_1_0_0_1_n_n.rhsIdx j q 1).val = (j 1).val := rfl

/-- Entry (n, o) of the [10240, 128] × [128, 128] product into a zero accumulator: the sum over the 128 contracted
    positions of row n of the left factor times column o of the right. -/
theorem epi_matmul_apply {φ₁ φ₂ : FTy} (A : FVec Ideal S10240x128 φ₁) (B : FVec Ideal S128x128 φ₂) (n : Fin 10240) (o : Fin 128) :
    (matmul dot_S10240x128_S128x128_S10240x128_1_0_0_1_n_n none A B (constant S10240x128 .f32 0#32) : FVec Ideal S10240x128 .f32) (ix2 n o)
      = ∑ k : Fin 128, A (ix2 n k) * B (ix2 k o) := by
  show FloatOps.matmul dot_S10240x128_S128x128_S10240x128_1_0_0_1_n_n none A B (constant S10240x128 .f32 0x00000000#32) (ix2 n o) = _
  rw [Ideal.matmul_constant_zero_apply,
    ← Equiv.sum_comp (contrEquiv1 dot_S10240x128_S128x128_S10240x128_1_0_0_1_n_n 128 rfl rfl).symm]
  refine Finset.sum_congr rfl fun k _ => ?_
  have hk := contrEquiv1_symm_val dot_S10240x128_S128x128_S10240x128_1_0_0_1_n_n 128 rfl rfl k
  have el : dot_S10240x128_S128x128_S10240x128_1_0_0_1_n_n.lhsIdx (ix2 n o)
      ((contrEquiv1 dot_S10240x128_S128x128_S10240x128_1_0_0_1_n_n 128 rfl rfl).symm k) = ix2 n k :=
    funext fun a => Fin.ext (by
      match a with
      | ⟨0, _⟩ => exact lhs_epi_0 _ _
      | ⟨1, _⟩ => exact (lhs_epi_1 _ _).trans hk)
  have er : dot_S10240x128_S128x128_S10240x128_1_0_0_1_n_n.rhsIdx (ix2 n o)
      ((contrEquiv1 dot_S10240x128_S128x128_S10240x128_1_0_0_1_n_n 128 rfl rfl).symm k) = ix2 k o :=
    funext fun a => Fin.ext (by
      match a with
      | ⟨0, _⟩ => exact (rhs_epi_0 _ _).trans hk
      | ⟨1, _⟩ => exact rhs_epi_1 _ _)
  rw [el, er]

/-- THE LAST STEP at entry (n, o): the running sums divided by the clamped count, plus the node's own features,
    times the transposed weights, plus the bias, clamped at zero. -/
theorem epi_tile (O : FVec Ideal S10240x128 .f32) (D : FVec Ideal S10240x1 .f32) (X2 : FVec Ideal S10240x128 .f32)
    (X3 : FVec Ideal S128x128 .f32) (X4 : FVec Ideal S128 .f32) (n : Fin 10240) (o : Fin 128) :
    (maximumf
      (addf
        (matmul dot_S10240x128_S128x128_S10240x128_1_0_0_1_n_n none
          (addf
            (divf O
              (broadcastTo S10240x128 (maximumf D (broadcast S10240x1 (FloatOps.ofBits (F := Ideal) .f32 1065353216#32)))
                broadcasts_S10240x1_S10240x128))
            X2)
          (transpose S128x128 [1, 0] X3 transposes_S128x128_p1_0_S128x128)
          (constant S10240x128 .f32 0#32))
        (broadcastTo S10240x128 (shapeCast S1x128 X4 shapeCasts_S128_S1x128) broadcasts_S1x128_S10240x128))
      (broadcast S10240x128 (FloatOps.ofBits (F := Ideal) .f32 0#32)) : FVec Ideal S10240x128 .f32) (ix2 n o)
      = epi (fun n k => O (ix2 n k)) (fun n => D (ix2 n 0)) X2 X3 X4 n o := by
  rw [maximumf_apply, addf_apply, epi_matmul_apply, bias_apply]
  unfold epi
  refine congrArg (fun s => max (s + X4 (ix1 o)) zero32) ?_
  refine Finset.sum_congr rfl fun k _ => ?_
  rw [addf_apply, divf_apply, clampD_apply, wT_apply]

end Cert.KernelIdeal.Tiles

end
-- ==== Proof.BodyC.lean ====
import proofs.«402920_j87531433492751_4_alg».proof.Proof.Gen.KernelIdeal.Frame
import proofs.«402920_j87531433492751_4_alg».proof.Proof.RunNorm
import proofs.«402920_j87531433492751_4_alg».proof.Proof.Spec
import proofs.«402920_j87531433492751_4_alg».proof.Proof.TilesGather
import proofs.«402920_j87531433492751_4_alg».proof.Proof.TilesScatter
import proofs.«402920_j87531433492751_4_alg».proof.Proof.TilesEpi

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Gcn Cert.KernelIdeal.Tiles
open scoped BigOperators

set_option maxHeartbeats 16000000 in
/-- The last grid point: after the block's accumulation the whole output block is overwritten by the layer's
    last step applied to the accumulated sums and counts. -/
theorem out0_C_5_apply (c : Dev nD) (i : grid0.Coords) (arg1 : Memref sig .tc .vmem S1024x1 .i32) (harg1 : arg1.IsWhole) (arg2 : Memref sig .tc .vmem S1x1024 .i32) (harg2 : arg2.IsWhole) (arg3 : Memref sig .tc .vmem S10240x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S10240x128 .f32) (harg6 : arg6.IsWhole) (arg7 : Memref sig .tc .vmem S1024x128 .f32) (harg7 : arg7.IsWhole) (arg8 : Memref sig .tc .vmem S10240x1 .f32) (harg8 : arg8.IsWhole) (arg9 : Memref sig .tc .vmem S1024x256 .bf16) (harg9 : arg9.IsWhole) (arg10 : Memref sig .tc .vmem S256x1024 .bf16) (harg10 : arg10.IsWhole) (hc0 : ¬cond0_0 i) (hc1 : cond0_1 i) (x0 : Vec Ideal S1024x1 .i32) (x1 : Vec Ideal S1x1024 .i32) (x2 : Vec Ideal S10240x128 .f32) (x3 : Vec Ideal S128x128 .f32) (x4 : Vec Ideal S128 .f32) (xo5 : Vec Ideal S10240x128 .f32) (xs1 : Vec Ideal S10240x1 .f32) (n : Fin 10240) (o : Fin 128) :
    out0_C_5 (F := Ideal) c i arg1 harg1 arg2 harg2 arg3 harg3 arg4 harg4 arg5 harg5 arg6 harg6 arg7 harg7 arg8 harg8 arg9 harg9 arg10 harg10 hc0 hc1 x0 x1 x2 x3 x4 xo5 xs1 (ix2 n o)
      = epi (stepOut x0 x1 x2 xo5) (stepDeg x1 xs1) x2 x3 x4 n o := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xo5 xs1)]
  unfold kernelRun0_C
  dsimp only
  rw [View.canon_cons_unit_zero (Val := Elt Ideal) Cert.RunNorm.off2_zero]
  open_run_names_once
  simp (disch := decide) only [↓View.readCov_cons_toLoadRect, ↓Cert.RunNorm.readCov_cons_of_disj, ↓Cert.RunNorm.readCov_cons_whole2]
  simp only [View.readAt_eq_ld, harg1.read_unread, harg2.read_unread, harg3.read_unread, harg4.read_unread, harg5.read_unread, harg6.read_unread, harg8.read_unread]
  generalize hG : k0_pay104 (F := Ideal) _ = G16
  have hGsem : ∀ (e : Fin 1024) (d : Fin 128), G16 (ix2 e d) = gath x0 x2 e d := by
    subst hG
    open_payloads
    dsimp only
    simp only [shapeCast_self, View.ld_unit_zero (S := S1024x1) Cert.RunNorm.off2_zero, truncf_apply]
    unfold gath
    repeat (first | exact gather_zero x0 x2 | refine gather_step _ _ x0 x2 _ ?_)
  clear hG
  generalize hL5 : View.readCov (Val := Elt Ideal) arg6.view _ _ = O
  generalize hLS : View.readCov (Val := Elt Ideal) arg8.view _ _ = D
  have hO : ∀ (n : Fin 10240) (k : Fin 128), O (ix2 n k) = stepOut x0 x1 x2 xo5 n k := by
    intro n k
    subst hL5
    rw [View.readCov_eq_canon']
    open_payloads
    dsimp only
    simp only [shapeCast_self, View.ld_unit_zero (S := S1x1024) Cert.RunNorm.off2_zero]
    have hi : (Rect.unit (s := S10240x128) ![0, 0] S10240x128.size inb_S10240x128_S10240x128_0_0).toLoadRect.idx (ix2 n k) = ix2 n k := by
      funext a; refine Fin.ext ?_
      match a with
      | ⟨0, _⟩ => simp [LoadRect.idx, Rect.toLoadRect, Rect.unit, ix2]
      | ⟨1, _⟩ => simp [LoadRect.idx, Rect.toLoadRect, Rect.unit, ix2]
    rw [hi, View.canon_apply_of_pieces (fun y : S10240x128.Idx => xo5 y + ∑ e : Fin 1024, hit (x1 (ix2 0 e)) (y 0).val * G16 (ix2 e ⟨(y 1).val, (y 1).isLt⟩)) _ ?_ (ix2 n k) (View.cover_of_tiledL (s := S10240x128) _ S256x128.size (by sl_kernel_rfl) _)]
    · unfold stepOut
      simp only [hGsem]
    · each_piece
      all_goals (intro x; exact out_tile _ _ x1 xo5 G16 x)
  have hD : ∀ (n : Fin 10240), D (ix2 n 0) = stepDeg x1 xs1 n := by
    intro n
    subst hLS
    rw [View.readCov_eq_canon']
    open_payloads
    dsimp only
    simp only [shapeCast_self, View.ld_unit_zero (S := S1x1024) Cert.RunNorm.off2_zero]
    have hi : (Rect.unit (s := S10240x1) ![0, 0] S10240x1.size inb_S10240x1_S10240x1_0_0).toLoadRect.idx (ix2 n 0) = ix2 n 0 := by
      funext a; refine Fin.ext ?_
      match a with
      | ⟨0, _⟩ => simp [LoadRect.idx, Rect.toLoadRect, Rect.unit, ix2]
      | ⟨1, _⟩ => simp [LoadRect.idx, Rect.toLoadRect, Rect.unit, ix2]
    rw [hi, View.canon_apply_of_pieces (fun y : S10240x1.Idx => xs1 y + ∑ e : Fin 1024, hit (x1 (ix2 0 e)) (y 0).val) _ ?_ (ix2 n 0) (View.cover_of_tiledL (s := S10240x1) _ S256x1.size (by sl_kernel_rfl) _)]
    · rfl
    · each_piece
      all_goals (intro x; exact deg_tile _ _ x1 xs1 _ _ x)
  clear hL5 hLS
  open_payloads
  dsimp only
  simp only [shapeCast_self, View.ld_unit_zero (S := S10240x128) Cert.RunNorm.off2_zero, View.ld_unit_zero (S := S128x128) Cert.RunNorm.off2_zero, View.ld_unit_zero (S := S128) Cert.RunNorm.off1_zero]
  rw [epi_tile O D x2 x3 x4 n o]
  unfold epi
  simp only [hO, hD]

end Cert.KernelIdeal.Body

end
-- ==== Proof.KGrid.lean ====
/-
  The 625 grid points, one after the other: after point t the output block holds, row by row, the gathered source
  rows of the first 1024·(t+1) edges into that row, and the count column the number of those edges; the last point
  then applies the layer's last step to the totals.
-/
import proofs.«402920_j87531433492751_4_alg».proof.Proof.Gen.KernelIdeal.Frame
import proofs.«402920_j87531433492751_4_alg».proof.Proof.Spec
import proofs.«402920_j87531433492751_4_alg».proof.Proof.KMath
import proofs.«402920_j87531433492751_4_alg».proof.Proof.LibBlockSum
import proofs.«402920_j87531433492751_4_alg».proof.Proof.BodyA
import proofs.«402920_j87531433492751_4_alg».proof.Proof.BodyB
import proofs.«402920_j87531433492751_4_alg».proof.Proof.BodyC

set_option maxRecDepth 16384

noncomputable section

namespace Cert.KernelIdeal.KGrid

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx Cert.KernelIdeal Cert.KernelIdeal.Gen Cert.Gcn Cert.KernelIdeal.Body
open scoped BigOperators

variable (m : (ℓ : Loc nD τ sig) → Buf (Elt Ideal) ℓ) (c : Dev nD)

/-- The arrays the region is launched on, under the types the specification reads them at. -/
abbrev Ssrc : IVec ⟨2, ![640000, 1]⟩ 32 := V m c main_v5
abbrev Sdst : IVec ⟨2, ![1, 640000]⟩ 32 := V m c main_v7
abbrev Xpad : (⟨2, ![10240, 128]⟩ : Shape).Idx → EReal := V m c main_v8

/-- What the launch's blocks are, as the induction uses them: block t of the source column and of the destination
    row are their words 1024·t … 1024·t + 1023; the features are staged whole. -/
structure Blocks : Prop where
  src : ∀ (t : Fin cfg0.N) (e : Fin 1024), iblk m c 0 t (ix2 e 0) = colN (Ssrc m c) (1024 * t.val + e.val)
  dst : ∀ (t : Fin cfg0.N) (e : Fin 1024), iblk m c 1 t (ix2 0 e) = rowWN (Sdst m c) (1024 * t.val + e.val)
  feat : ∀ t : Fin cfg0.N, iblk m c 2 t = Xpad m c

theorem lt_N {t : ℕ} (h : t < 625) : t < cfg0.N := lt_of_lt_of_eq h (show cfg0.N = 625 from N_0).symm

variable {m c}

/-- The first point: zero plus block 0. -/
theorem first_point (hb : Blocks m c) (t : Fin cfg0.N) (h0 : t.val % 625 = 0) (h1 : ¬t.val % 625 = 624) (n : Fin 10240) (d : Fin 128) :
    (outsAt0 (F := Ideal) m c t.val t.isLt).1 (ix2 n d) = 0 + ∑ k : Fin 1024, term (Ssrc m c) (Sdst m c) (Xpad m c) n d (1024 * t.val + k.val)
    ∧ (outsAt0 (F := Ideal) m c t.val t.isLt).2 (ix2 n 0) = 0 + ∑ k : Fin 1024, cnt (Sdst m c) n (1024 * t.val + k.val) := by
  rw [outsAt0_A m c t h0 h1]
  dsimp only
  constructor
  · refine (out0_A_5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) n d).trans ?_
    rw [hb.feat t]
    exact stepOut_block (Ssrc m c) (Sdst m c) (Xpad m c) (iblk m c 0 t) (iblk m c 1 t) t.val (lt_of_lt_of_eq t.isLt (show cfg0.N = 625 from N_0)) (hb.src t) (hb.dst t) (fun _ => 0) n d
  · refine (sout0_A_1_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) n).trans ?_
    exact stepDeg_block (Sdst m c) (iblk m c 1 t) t.val (hb.dst t) (fun _ => 0) n

/-- A middle point: what the point before left, plus block t. -/
theorem middle_point (hb : Blocks m c) (t : Fin cfg0.N) (h0 : ¬t.val % 625 = 0) (h1 : ¬t.val % 625 = 624) (n : Fin 10240) (d : Fin 128) :
    (outsAt0 (F := Ideal) m c t.val t.isLt).1 (ix2 n d)
      = (outsAt0 (F := Ideal) m c (t.val - 1) (Nat.lt_of_le_of_lt (Nat.sub_le _ _) t.isLt)).1 (ix2 n d)
        + ∑ k : Fin 1024, term (Ssrc m c) (Sdst m c) (Xpad m c) n d (1024 * t.val + k.val)
    ∧ (outsAt0 (F := Ideal) m c t.val t.isLt).2 (ix2 n 0)
      = (outsAt0 (F := Ideal) m c (t.val - 1) (Nat.lt_of_le_of_lt (Nat.sub_le _ _) t.isLt)).2 (ix2 n 0)
        + ∑ k : Fin 1024, cnt (Sdst m c) n (1024 * t.val + k.val) := by
  rw [outsAt0_B m c t h0 h1]
  dsimp only
  constructor
  · refine (out0_B_5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 n d).trans ?_
    rw [hb.feat t]
    exact stepOut_block (Ssrc m c) (Sdst m c) (Xpad m c) (iblk m c 0 t) (iblk m c 1 t) t.val (lt_of_lt_of_eq t.isLt (show cfg0.N = 625 from N_0)) (hb.src t) (hb.dst t) _ n d
  · refine (sout0_B_1_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 n).trans ?_
    exact stepDeg_block (Sdst m c) (iblk m c 1 t) t.val (hb.dst t) _ n

/-- Entry (n, d) of the output block after point t, and entry n of the count column, named so that the induction
    below never opens what a point leaves. -/
def sumAt (t : ℕ) (h : t < cfg0.N) (n : Fin 10240) (d : Fin 128) : EReal := (outsAt0 (F := Ideal) m c t h).1 (ix2 n d)
def cntAt (t : ℕ) (h : t < cfg0.N) (n : Fin 10240) : EReal := (outsAt0 (F := Ideal) m c t h).2 (ix2 n 0)

theorem sumAt_def (t : ℕ) (h : t < cfg0.N) (n : Fin 10240) (d : Fin 128) :
    (outsAt0 (F := Ideal) m c t h).1 (ix2 n d) = sumAt (m := m) (c := c) t h n d := rfl
theorem cntAt_def (t : ℕ) (h : t < cfg0.N) (n : Fin 10240) :
    (outsAt0 (F := Ideal) m c t h).2 (ix2 n 0) = cntAt (m := m) (c := c) t h n := rfl

theorem sumAt_first (hb : Blocks m c) (t : Fin cfg0.N) (h0 : t.val % 625 = 0) (h1 : ¬t.val % 625 = 624) (n : Fin 10240) (d : Fin 128) :
    sumAt (m := m) (c := c) t.val t.isLt n d = 0 + ∑ k : Fin 1024, term (Ssrc m c) (Sdst m c) (Xpad m c) n d (1024 * t.val + k.val) :=
  (first_point hb t h0 h1 n d).1
theorem cntAt_first (hb : Blocks m c) (t : Fin cfg0.N) (h0 : t.val % 625 = 0) (h1 : ¬t.val % 625 = 624) (n : Fin 10240) :
    cntAt (m := m) (c := c) t.val t.isLt n = 0 + ∑ k : Fin 1024, cnt (Sdst m c) n (1024 * t.val + k.val) :=
  (first_point hb t h0 h1 n 0).2
theorem sumAt_middle (hb : Blocks m c) (t : Fin cfg0.N) (h0 : ¬t.val % 625 = 0) (h1 : ¬t.val % 625 = 624) (n : Fin 10240) (d : Fin 128) :
    sumAt (m := m) (c := c) t.val t.isLt n d
      = sumAt (m := m) (c := c) (t.val - 1) (Nat.lt_of_le_of_lt (Nat.sub_le _ _) t.isLt) n d
        + ∑ k : Fin 1024, term (Ssrc m c) (Sdst m c) (Xpad m c) n d (1024 * t.val + k.val) :=
  (middle_point hb t h0 h1 n d).1
theorem cntAt_middle (hb : Blocks m c) (t : Fin cfg0.N) (h0 : ¬t.val % 625 = 0) (h1 : ¬t.val % 625 = 624) (n : Fin 10240) :
    cntAt (m := m) (c := c) t.val t.isLt n
      = cntAt (m := m) (c := c) (t.val - 1) (Nat.lt_of_le_of_lt (Nat.sub_le _ _) t.isLt) n
        + ∑ k : Fin 1024, cnt (Sdst m c) n (1024 * t.val + k.val) :=
  (middle_point hb t h0 h1 n 0).2

attribute [irreducible] sumAt cntAt

theorem sumAt_congr (a b : ℕ) (hab : a = b) (pa : a < cfg0.N) (pb : b < cfg0.N) (n : Fin 10240) (d : Fin 128) :
    sumAt (m := m) (c := c) a pa n d = sumAt (m := m) (c := c) b pb n d := by subst hab; rfl
theorem cntAt_congr (a b : ℕ) (hab : a = b) (pa : a < cfg0.N) (pb : b < cfg0.N) (n : Fin 10240) :
    cntAt (m := m) (c := c) a pa n = cntAt (m := m) (c := c) b pb n := by subst hab; rfl

/-- After point t < 624 the block holds the sums over the first 1024·(t+1) edges. -/
theorem prefix_sums (hb : Blocks m c) (n : Fin 10240) (d : Fin 128) (t : ℕ) (h : t < 624) :
    sumAt (m := m) (c := c) t (lt_N (by omega)) n d = ∑ j ∈ Finset.range (1024 * (t + 1)), term (Ssrc m c) (Sdst m c) (Xpad m c) n d j :=
  Cert.LibBlockSum.fold_eq_prefix (term (Ssrc m c) (Sdst m c) (Xpad m c) n d) 1024 (N := 624)
    (fun t h => sumAt (m := m) (c := c) t (lt_N (by omega)) n d)
    (fun h => sumAt_first hb ⟨0, lt_N (by omega)⟩ rfl (by show ¬0 % 625 = 624; omega) n d)
    (fun t h => (sumAt_middle hb ⟨t + 1, lt_N (by omega)⟩ (by show ¬(t + 1) % 625 = 0; omega) (by show ¬(t + 1) % 625 = 624; omega) n d).trans
      (by rw [sumAt_congr (m := m) (c := c) ((⟨t + 1, lt_N (by omega)⟩ : Fin cfg0.N).val - 1) t (by show t + 1 - 1 = t; omega) _ (lt_N (by omega)) n d]))
    t h

/-- After point t < 624 the count column holds the counts over the first 1024·(t+1) edges. -/
theorem prefix_counts (hb : Blocks m c) (n : Fin 10240) (t : ℕ) (h : t < 624) :
    cntAt (m := m) (c := c) t (lt_N (by omega)) n = ∑ j ∈ Finset.range (1024 * (t + 1)), cnt (Sdst m c) n j :=
  Cert.LibBlockSum.fold_eq_prefix (cnt (Sdst m c) n) 1024 (N := 624)
    (fun t h => cntAt (m := m) (c := c) t (lt_N (by omega)) n)
    (fun h => cntAt_first hb ⟨0, lt_N (by omega)⟩ rfl (by show ¬0 % 625 = 624; omega) n)
    (fun t h => (cntAt_middle hb ⟨t + 1, lt_N (by omega)⟩ (by show ¬(t + 1) % 625 = 0; omega) (by show ¬(t + 1) % 625 = 624; omega) n).trans
      (by rw [cntAt_congr (m := m) (c := c) ((⟨t + 1, lt_N (by omega)⟩ : Fin cfg0.N).val - 1) t (by show t + 1 - 1 = t; omega) _ (lt_N (by omega)) n]))
    t h

/-- THE LAST POINT: the block the region writes back is the layer's last step of the totals. -/
theorem last_point (hb : Blocks m c) (W : (⟨2, ![128, 128]⟩ : Shape).Idx → EReal) (b : (⟨1, ![128]⟩ : Shape).Idx → EReal)
    (hW : ∀ t : Fin cfg0.N, iblk m c 3 t = W) (hbias : ∀ t : Fin cfg0.N, iblk m c 4 t = b)
    (a : ℕ) (pa : a < cfg0.N) (ha : a = 624) (n : Fin 10240) (o : Fin 128) :
    (outsAt0 (F := Ideal) m c a pa).1 (ix2 n o) = outK (Ssrc m c) (Sdst m c) (Xpad m c) W b n o := by
  have key : ∀ t : Fin cfg0.N, t.val = 624 →
      (outsAt0 (F := Ideal) m c t.val t.isLt).1 (ix2 n o) = outK (Ssrc m c) (Sdst m c) (Xpad m c) W b n o := by
    intro t ht
    have h0 : ¬t.val % 625 = 0 := by omega
    have h1 : t.val % 625 = 624 := by omega
    rw [outsAt0_C m c t h0 h1]
    dsimp only
    refine (out0_C_5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2 n o).trans ?_
    rw [hb.feat t, hW t, hbias t]
    have hO : ∀ k : Fin 128, stepOut (iblk m c 0 t) (iblk m c 1 t) (Xpad m c) (outsAt0 (F := Ideal) m c (t.val - 1) (Nat.lt_of_le_of_lt (Nat.sub_le _ _) t.isLt)).1 n k
        = aggK (Ssrc m c) (Sdst m c) (Xpad m c) n k := by
      intro k
      rw [stepOut_block (Ssrc m c) (Sdst m c) (Xpad m c) (iblk m c 0 t) (iblk m c 1 t) t.val (by omega) (hb.src t) (hb.dst t) _ n k,
        sumAt_def, sumAt_congr (m := m) (c := c) (t.val - 1) 623 (by omega) _ (lt_N (by omega)) n k, prefix_sums hb n k 623 (by omega), ht]
      unfold aggK
      exact (Cert.LibBlockSum.sum_range_succ_block_fin (term (Ssrc m c) (Sdst m c) (Xpad m c) n k) 1024 624).symm
    have hD : stepDeg (iblk m c 1 t) (outsAt0 (F := Ideal) m c (t.val - 1) (Nat.lt_of_le_of_lt (Nat.sub_le _ _) t.isLt)).2 n
        = degK (Sdst m c) n := by
      rw [stepDeg_block (Sdst m c) (iblk m c 1 t) t.val (hb.dst t) _ n,
        cntAt_def, cntAt_congr (m := m) (c := c) (t.val - 1) 623 (by omega) _ (lt_N (by omega)) n, prefix_counts hb n 623 (by omega), ht]
      unfold degK
      exact (Cert.LibBlockSum.sum_range_succ_block_fin (cnt (Sdst m c) n) 1024 624).symm
    unfold outK epi
    simp only [hO, hD]
  exact key ⟨a, pa⟩ ha

end Cert.KernelIdeal.KGrid

end
-- ==== Proof.KValue.lean ====
/-
  The kernel program's run with its result named: under the stated domain of the source words, the program ends
  with its result array at the layer's specification of its four arguments, the arguments unchanged.
-/
import proofs.«402920_j87531433492751_4_alg».proof.Proof.Gen.KernelIdeal.Frame
import proofs.«402920_j87531433492751_4_alg».proof.Proof.Spec
import proofs.«402920_j87531433492751_4_alg».proof.Proof.KMath
import proofs.«402920_j87531433492751_4_alg».proof.Proof.KHost
import proofs.«402920_j87531433492751_4_alg».proof.Proof.KRun
import proofs.«402920_j87531433492751_4_alg».proof.Proof.KGrid

set_option maxRecDepth 16384

noncomputable section

namespace Cert.KernelIdeal.KValue

open Idealize.ShloMosaic Idealize.ShloMosaic.TcCoe Idealize.ShloMosaic.Tactic
open Idealize.SL Idealize.SL.Sem
open Idealize.ShloMosaic.ValueIdx Cert.KernelIdeal Cert.KernelIdeal.Gen Cert.Gcn
open Cert.KernelIdeal.KGrid Cert.KernelIdeal.KHost Cert.KernelIdeal.KRun
open scoped BigOperators

variable (m : (ℓ : Loc nD τ sig) → Buf (Elt Ideal) ℓ) (ρ : Dev nD → PrngReg)

/-- The layer's specification as an array over the result's index. -/
def specArr (x : (⟨2, ![10000, 128]⟩ : Shape).Idx → EReal) (ei : IVec ⟨2, ![2, 640000]⟩ 32)
    (W : (⟨2, ![128, 128]⟩ : Shape).Idx → EReal) (b : (⟨1, ![128]⟩ : Shape).Idx → EReal) :
    (⟨2, ![10000, 128]⟩ : Shape).Idx → EReal :=
  fun i => out x ei W b ⟨(i 0).val, (i 0).isLt⟩ ⟨(i 1).val, (i 1).isLt⟩

/-- The launch's blocks are the stretches of the streamed column and row, and the padded features whole. -/
theorem blocks (c : Dev nD) : Blocks m c where
  src t e := by
    have hlt : 1024 * t.val + e.val < 640000 := by have := lt_of_lt_of_eq t.isLt (show cfg0.N = 625 from N_0); omega
    rw [iblk0_apply m c t e]
    unfold colN
    rw [dif_pos hlt]
  dst t e := by
    have hlt : 1024 * t.val + e.val < 640000 := by have := lt_of_lt_of_eq t.isLt (show cfg0.N = 625 from N_0); omega
    rw [iblk1_apply m c t e]
    unfold rowWN
    rw [dif_pos hlt]
  feat t := iblk2_eq m c t

/-- The kernel program's run: the result is the specification of the arguments. -/
theorem run (hsrc : ∀ (c : Dev nD) (j : Fin 640000),
      0 ≤ ((m ((c : Thread nD τ).loc main_arg1) : S2x640000.Idx → BitVec 32) (ix2 0 j)).toInt
      ∧ ((m ((c : Thread nD τ).loc main_arg1) : S2x640000.Idx → BitVec 32) (ix2 0 j)).toInt < 10000) :
    θ_run defs (onTc (τ := τ) (main (F := Ideal))) ⟨m, fun _ => 0, ρ⟩ (fun r => ∀ c : Dev nD,
      r.2.mem ((c.tc : Thread nD τ).loc main_v10)
          = specArr (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩)
    (kernel_run m ρ
      (fun c y => outK (Ssrc m c) (Sdst m c) (Xpad m c) (m ((c : Thread nD τ).loc main_arg2)) (m ((c : Thread nD τ).loc main_arg3))
        ⟨(y 0).val, (y 0).isLt⟩ ⟨(y 1).val, (y 1).isLt⟩)
      (fun c h => funext fun y => by
        obtain ⟨n, o, rfl⟩ : ∃ (n : Fin 10240) (o : Fin 128), y = ix2 n o := ⟨y 0, y 1, eq_ix2 y⟩
        exact last_point (blocks m c) _ _ (iblk3_eq m c) (iblk4_eq m c) 624 h rfl n o))
  funext i
  obtain ⟨n, o, rfl⟩ : ∃ (n : Fin 10000) (o : Fin 128), i = ix2 n o := ⟨i 0, i 1, eq_ix2 i⟩
  exact outK_eq_out (m ((c : Thread nD τ).loc main_arg0)) (m ((c : Thread nD τ).loc main_arg1))
    (m ((c : Thread nD τ).loc main_arg2)) (m ((c : Thread nD τ).loc main_arg3)) (Ssrc m c) (Sdst m c) (Xpad m c)
    (V_src m c) (V_dst m c) (V_xp m c) (hsrc c) n o

end Cert.KernelIdeal.KValue

end
-- ==== Proof.lean ====
/-
  The graph-convolution layer: a Pallas kernel that recasts the scatter-add over the edges as one-hot matrix
  products, accumulated over 625 blocks of 1024 edges into node arrays padded to 10240 rows, against the jnp
  reference (a row gather, two scatter-adds, a division, a matrix product, a bias and a clamp at zero).

  Both programs are shown to end with the result array at ONE function of the four inputs (Proof/Spec.lean):
  the kernel by reading each grid point's body tile by tile (Proof/BodyA, BodyB, BodyC over Proof/Tiles*), by an
  induction over the grid points (Proof/KGrid) and by reading the host operations around the region (Proof/KHost,
  Proof/KRun, Proof/KValue); the reference by reading its operations one at a time (Proof/RefValue). The two agree
  where every source word names a node: outside that range the reference clamps or wraps the index while the kernel's
  one-hot product selects no row, so the stated domain asks 0 ≤ source < 10000 (Proof/PreFacts reads it off the
  precondition). No finiteness is used: sums of products with 0/1 weights need none on the extended reals.
-/
import proofs.«402920_j87531433492751_4_alg».proof.Defs
import proofs.«402920_j87531433492751_4_alg».proof.Proof.Gen.Kernel
import proofs.«402920_j87531433492751_4_alg».proof.Proof.Gen.Kernel.Skeleton
import proofs.«402920_j87531433492751_4_alg».proof.Proof.Gen.Kernel.Launch
import proofs.«402920_j87531433492751_4_alg».proof.Proof.Gen.Kernel.Points
import proofs.«402920_j87531433492751_4_alg».proof.Proof.Gen.Kernel.Frame
import proofs.«402920_j87531433492751_4_alg».proof.Proof.Gen.KernelIdeal
import proofs.«402920_j87531433492751_4_alg».proof.Proof.Gen.KernelIdeal.Skeleton
import proofs.«402920_j87531433492751_4_alg».proof.Proof.Gen.KernelIdeal.Launch
import proofs.«402920_j87531433492751_4_alg».proof.Proof.Gen.KernelIdeal.Points
import proofs.«402920_j87531433492751_4_alg».proof.Proof.Gen.KernelIdeal.Frame
import proofs.«402920_j87531433492751_4_alg».proof.Proof.Gen.ReferenceIdeal
import proofs.«402920_j87531433492751_4_alg».proof.Proof.Gen.ReferenceIdeal.Run
import proofs.«402920_j87531433492751_4_alg».proof.Proof.Gen.ReferenceIdeal.Read
import proofs.«402920_j87531433492751_4_alg».proof.Proof.Gen.Pre_finite_inputs
import proofs.«402920_j87531433492751_4_alg».proof.Proof.PreFacts
import proofs.«402920_j87531433492751_4_alg».proof.Proof.RefValue
import proofs.«402920_j87531433492751_4_alg».proof.Proof.KValue
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification of the arguments: the kernel by its run over the grid, the reference by
    its operations read one at a time; the source words' range comes from the precondition. -/
theorem algebraic : Cert.algebraic_KernelIdeal_ReferenceIdeal := by
  intro m ρ m' ρ' hpre hagree
  have hsrc : ∀ (c : Dev Cert.KernelIdeal.nD) (j : Fin 640000),
      0 ≤ ((m ((c.tc : Thread Cert.KernelIdeal.nD Cert.KernelIdeal.τ).loc Cert.KernelIdeal.main_arg1) : Cert.KernelIdeal.S2x640000.Idx → BitVec 32) (ix2 0 j)).toInt
      ∧ ((m ((c.tc : Thread Cert.KernelIdeal.nD Cert.KernelIdeal.τ).loc Cert.KernelIdeal.main_arg1) : Cert.KernelIdeal.S2x640000.Idx → BitVec 32) (ix2 0 j)).toInt < 10000 :=
    fun c j => Cert.PreFacts.src_range (F := Ideal) _ _ _ _ (hpre c) j
  refine ⟨fun c => Cert.KernelIdeal.KValue.specArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ hsrc, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v28_eq]
  funext i
  obtain ⟨n, o, rfl⟩ : ∃ (n : Fin 10000) (o : Fin 128), i = ix2 n o := ⟨i 0, i 1, eq_ix2 i⟩
  exact Cert.ReferenceIdeal.RefValue.ref_value _ _ _ _ (hsrc c) n o

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
